-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S256x128 .f32) (main_arg3 : FVec F S256 .f32) (main_arg4 : FVec F S64x256 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S1968 : Shape := ⟨1, ![1968]⟩
abbrev S851968 : Shape := ⟨1, ![851968]⟩
abbrev S851968x1 : Shape := ⟨2, ![851968, 1]⟩
abbrev S851968x128 : Shape := ⟨2, ![851968, 128]⟩
abbrev S2048x128 : Shape := ⟨2, ![2048, 128]⟩
abbrev S2048 : Shape := ⟨1, ![2048]⟩
abbrev S2048x1 : Shape := ⟨2, ![2048, 1]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S128x256 : Shape := ⟨2, ![128, 256]⟩
abbrev S851968x256 : Shape := ⟨2, ![851968, 256]⟩
abbrev S2048x256 : Shape := ⟨2, ![2048, 256]⟩
abbrev S1x64 : Shape := ⟨2, ![1, 64]⟩
abbrev S50000x64 : Shape := ⟨2, ![50000, 64]⟩
abbrev S5000x64 : Shape := ⟨2, ![5000, 64]⟩
abbrev S256x64 : Shape := ⟨2, ![256, 64]⟩
abbrev S50000x1 : Shape := ⟨2, ![50000, 1]⟩

abbrev nBuf : Space → Nat
  | .hbm => 85
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S64x256, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .i32⟩
  | .hbm, ⟨14, _⟩ => ⟨S1968, .i32⟩
  | .hbm, ⟨15, _⟩ => ⟨S_, .i32⟩
  | .hbm, ⟨16, _⟩ => ⟨S1968, .i32⟩
  | .hbm, ⟨17, _⟩ => ⟨S851968, .i32⟩
  | .hbm, ⟨18, _⟩ => ⟨S851968, .i32⟩
  | .hbm, ⟨19, _⟩ => ⟨S851968, .i32⟩
  | .hbm, ⟨20, _⟩ => ⟨S_, .i32⟩
  | .hbm, ⟨21, _⟩ => ⟨S851968, .i32⟩
  | .hbm, ⟨22, _⟩ => ⟨S851968, .i1⟩
  | .hbm, ⟨23, _⟩ => ⟨S_, .i32⟩
  | .hbm, ⟨24, _⟩ => ⟨S851968, .i32⟩
  | .hbm, ⟨25, _⟩ => ⟨S851968, .i32⟩
  | .hbm, ⟨26, _⟩ => ⟨S851968, .i32⟩
  | .hbm, ⟨27, _⟩ => ⟨S851968x1, .i32⟩
  | .hbm, ⟨28, _⟩ => ⟨S851968x128, .f32⟩
  | .hbm, ⟨29, _⟩ => ⟨S_, .i32⟩
  | .hbm, ⟨30, _⟩ => ⟨S851968, .i32⟩
  | .hbm, ⟨31, _⟩ => ⟨S851968, .i1⟩
  | .hbm, ⟨32, _⟩ => ⟨S_, .i32⟩
  | .hbm, ⟨33, _⟩ => ⟨S851968, .i32⟩
  | .hbm, ⟨34, _⟩ => ⟨S851968, .i32⟩
  | .hbm, ⟨35, _⟩ => ⟨S851968, .i32⟩
  | .hbm, ⟨36, _⟩ => ⟨S851968x1, .i32⟩
  | .hbm, ⟨37, _⟩ => ⟨S851968x128, .f32⟩
  | .hbm, ⟨38, _⟩ => ⟨S851968x128, .f32⟩
  | .hbm, ⟨39, _⟩ => ⟨S_, .f32⟩
  | .hbm, ⟨40, _⟩ => ⟨S50000x128, .f32⟩
  | .hbm, ⟨41, _⟩ => ⟨S851968x1, .i32⟩
  | .hbm, ⟨42, _⟩ => ⟨S50000x128, .f32⟩
  | .hbm, ⟨43, _⟩ => ⟨S1x256, .f32⟩
  | .hbm, ⟨44, _⟩ => ⟨S50000x256, .f32⟩
  | .hbm, ⟨45, _⟩ => ⟨S_, .i32⟩
  | .hbm, ⟨46, _⟩ => ⟨S851968, .i32⟩
  | .hbm, ⟨47, _⟩ => ⟨S851968, .i1⟩
  | .hbm, ⟨48, _⟩ => ⟨S_, .i32⟩
  | .hbm, ⟨49, _⟩ => ⟨S851968, .i32⟩
  | .hbm, ⟨50, _⟩ => ⟨S851968, .i32⟩
  | .hbm, ⟨51, _⟩ => ⟨S851968, .i32⟩
  | .hbm, ⟨52, _⟩ => ⟨S851968x1, .i32⟩
  | .hbm, ⟨53, _⟩ => ⟨S851968x256, .f32⟩
  | .hbm, ⟨54, _⟩ => ⟨S_, .i32⟩
  | .hbm, ⟨55, _⟩ => ⟨S851968, .i32⟩
  | .hbm, ⟨56, _⟩ => ⟨S851968, .i1⟩
  | .hbm, ⟨57, _⟩ => ⟨S_, .i32⟩
  | .hbm, ⟨58, _⟩ => ⟨S851968, .i32⟩
  | .hbm, ⟨59, _⟩ => ⟨S851968, .i32⟩
  | .hbm, ⟨60, _⟩ => ⟨S851968, .i32⟩
  | .hbm, ⟨61, _⟩ => ⟨S851968x1, .i32⟩
  | .hbm, ⟨62, _⟩ => ⟨S851968x256, .f32⟩
  | .hbm, ⟨63, _⟩ => ⟨S851968x256, .f32⟩
  | .hbm, ⟨64, _⟩ => ⟨S_, .f32⟩
  | .hbm, ⟨65, _⟩ => ⟨S50000x256, .f32⟩
  | .hbm, ⟨66, _⟩ => ⟨S851968x1, .i32⟩
  | .hbm, ⟨67, _⟩ => ⟨S50000x256, .f32⟩
  | .hbm, ⟨68, _⟩ => ⟨S1x64, .f32⟩
  | .hbm, ⟨69, _⟩ => ⟨S50000x64, .f32⟩
  | .hbm, ⟨70, _⟩ => ⟨S_, .f32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000, .f32⟩
  | .hbm, ⟨81, _⟩ => ⟨S50000x1, .f32⟩
  | .hbm, ⟨82, _⟩ => ⟨S50000x1, .f32⟩
  | .hbm, ⟨83, _⟩ => ⟨S50000x64, .f32⟩
  | .hbm, ⟨84, _⟩ => ⟨S50000x64, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S5000x128, .f32⟩
  | .local _ .vmem, ⟨7, _⟩ => ⟨S5000x128, .f32⟩
  | .local _ .vmem, ⟨8, _⟩ => ⟨S256x128, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S5000x256, .f32⟩
  | .local _ .vmem, ⟨19, _⟩ => ⟨S5000x256, .f32⟩
  | .local _ .vmem, ⟨20, _⟩ => ⟨S64x256, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call0_cst : Ref sig .tc := ⟨.hbm, 70, rfl⟩
abbrev main_call0_v0 : Ref sig .tc := ⟨.hbm, 71, rfl⟩
abbrev main_call0_cst_0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_cst_1 : Ref sig .tc := ⟨.hbm, 79, rfl⟩
abbrev main_call0_v7 : Ref sig .tc := ⟨.hbm, 80, rfl⟩
abbrev main_call0_v8 : Ref sig .tc := ⟨.hbm, 81, rfl⟩
abbrev main_call0_v9 : Ref sig .tc := ⟨.hbm, 82, rfl⟩
abbrev main_call0_v10 : Ref sig .tc := ⟨.hbm, 83, rfl⟩
abbrev main_v52 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![416], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![416], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S1968 : S_.BroadcastsInDim S1968 (![] : Fin 0 → Fin S1968.rank)
  concatenates_S850000_S1968_S851968_d0 : Shape.Concatenates [S850000, S1968] S851968 0
  bcast_S_S851968 : S_.BroadcastsInDim S851968 (![] : Fin 0 → Fin S851968.rank)
  bcast_S851968_S851968x1_0 : S851968.BroadcastsInDim S851968x1 (![0] : Fin 1 → Fin S851968x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  natLt_1_32 : 1 < 32
  broadcasts_S2048x1_S2048x128 : S2048x1.Broadcasts S2048x128
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  broadcasts_S2048x1_S2048x256 : S2048x1.Broadcasts S2048x256
  bcast_S_S50000x256 : S_.BroadcastsInDim S50000x256 (![] : Fin 0 → Fin S50000x256.rank)
  shapeCasts_S64_S1x64 : S64.ShapeCasts S1x64
  shapeCasts_S5000x256_S5000x256 : S5000x256.ShapeCasts S5000x256
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x128_S851968x1_S851968x128_1_0_n_n_0_1_1128_wf : GatherDims.WF S50000x128 S851968x1 S851968x128 [1] [0] [] [0] [] 1 ![1, 128]
  scatter_S50000x128_S851968x1_S851968x128_1_0_0_1_wf : ScatterDims.WF S50000x128 S851968x1 S851968x128 [1] [0] [0] 1
  dot_S5000x128_S128x256_S5000x256_1_0_0_1_n_n_wf : DotDims.WF S5000x128 S128x256 S5000x256 [1] [0] [0] [1] [] []
  gather_S50000x256_S851968x1_S851968x256_1_0_n_n_0_1_1256_wf : GatherDims.WF S50000x256 S851968x1 S851968x256 [1] [0] [] [0] [] 1 ![1, 256]
  scatter_S50000x256_S851968x1_S851968x256_1_0_0_1_wf : ScatterDims.WF S50000x256 S851968x1 S851968x256 [1] [0] [0] 1
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S851968x128.size a
  hwx0_0 : ∀ i : grid0.Coords, EltTy.bits .f32 = 32 ∨ (Rect.block (s := S851968x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S851968x128.size a
  hwx0_1 : ∀ i : grid0.Coords, EltTy.bits .f32 = 32 ∨ (Rect.block (s := S851968x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S851968x128.size a
  hwx0_2 : ∀ i : grid0.Coords, EltTy.bits .f32 = 32 ∨ (Rect.block (s := S851968x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S851968x256.size a
  hwx2_0 : ∀ i : grid2.Coords, EltTy.bits .f32 = 32 ∨ (Rect.block (s := S851968x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S851968x256.size a
  hwx2_1 : ∀ i : grid2.Coords, EltTy.bits .f32 = 32 ∨ (Rect.block (s := S851968x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S851968x256.size a
  hwx2_2 : ∀ i : grid2.Coords, EltTy.bits .f32 = 32 ∨ (Rect.block (s := S851968x256) S2048x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x256.size a ≤ S64x256.size a
  hwx3_1 : ∀ i : grid3.Coords, EltTy.bits .f32 = 32 ∨ (Rect.block (s := S64x256) S64x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def gather_S50000x128_S851968x1_S851968x128_1_0_n_n_0_1_1128 : GatherDims S50000x128 S851968x1 S851968x128 where
  offsetDims := [1]
  collapsedSliceDims := [0]
  operandBatchingDims := []
  startIndicesBatchingDims := []
  startIndexMap := [0]
  indexVectorDim := 1
  sliceSizes := ![1, 128]
  wf := gather_S50000x128_S851968x1_S851968x128_1_0_n_n_0_1_1128_wf
def scatter_S50000x128_S851968x1_S851968x128_1_0_0_1 : ScatterDims S50000x128 S851968x1 S851968x128 where
  updateWindowDims := [1]
  insertedWindowDims := [0]
  scatterDimsToOperandDims := [0]
  indexVectorDim := 1
  wf := scatter_S50000x128_S851968x1_S851968x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S851968x1_S851968x256_1_0_n_n_0_1_1256 : GatherDims S50000x256 S851968x1 S851968x256 where
  offsetDims := [1]
  collapsedSliceDims := [0]
  operandBatchingDims := []
  startIndicesBatchingDims := []
  startIndexMap := [0]
  indexVectorDim := 1
  sliceSizes := ![1, 256]
  wf := gather_S50000x256_S851968x1_S851968x256_1_0_n_n_0_1_1256_wf
def scatter_S50000x256_S851968x1_S851968x256_1_0_0_1 : ScatterDims S50000x256 S851968x1 S851968x256 where
  updateWindowDims := [1]
  insertedWindowDims := [0]
  scatterDimsToOperandDims := [0]
  indexVectorDim := 1
  wf := scatter_S50000x256_S851968x1_S851968x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v25) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2048x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x256 : Shape := ⟨2, ![128, 256]⟩
abbrev S50000x256 : Shape := ⟨2, ![50000, 256]⟩
abbrev S1x256 : Shape := ⟨2, ![1, 256]⟩
abbrev S850000x256 : Shape := ⟨2, ![850000, 256]⟩
abbrev S256x64 : Shape := ⟨2, ![256, 64]⟩
abbrev S50000x64 : Shape := ⟨2, ![50000, 64]⟩
abbrev S1x64 : Shape := ⟨2, ![1, 64]⟩
abbrev S50000x1 : Shape := ⟨2, ![50000, 1]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S256x128, .f32⟩
  | 3 => ⟨S256, .f32⟩
  | 4 => ⟨S64x256, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x128, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000x128, .f32⟩
  | 31 => ⟨S850000x128, .f32⟩
  | 32 => ⟨S_, .f32⟩
  | 33 => ⟨S850000, .f32⟩
  | 34 => ⟨S850000x128, .f32⟩
  | 35 => ⟨S_, .f32⟩
  | 36 => ⟨S850000, .f32⟩
  | 37 => ⟨S850000, .f32⟩
  | 38 => ⟨S850000x128, .f32⟩
  | 39 => ⟨S_, .f32⟩
  | 40 => ⟨S850000, .f32⟩
  | 41 => ⟨S850000, .f32⟩
  | 42 => ⟨S850000, .f32⟩
  | 43 => ⟨S_, .f32⟩
  | 44 => ⟨S850000, .f32⟩
  | 45 => ⟨S850000, .f32⟩
  | 46 => ⟨S850000, .f32⟩
  | 47 => ⟨S_, .f32⟩
  | 48 => ⟨S850000, .f32⟩
  | 49 => ⟨S850000, .i1⟩
  | 50 => ⟨S850000, .f32⟩
  | 51 => ⟨S850000x1, .f32⟩
  | 52 => ⟨S850000x128, .f32⟩
  | 53 => ⟨S850000x128, .f32⟩
  | 54 => ⟨S_, .f32⟩
  | 55 => ⟨S50000x128, .f32⟩
  | 56 => ⟨S850000x1, .i32⟩
  | 57 => ⟨S50000x128, .f32⟩
  | 58 => ⟨S128x256, .f32⟩
  | 59 => ⟨S50000x256, .f32⟩
  | 60 => ⟨S1x256, .f32⟩
  | 61 => ⟨S50000x256, .f32⟩
  | 62 => ⟨S50000x256, .f32⟩
  | 63 => ⟨S_, .f32⟩
  | 64 => ⟨S50000x256, .f32⟩
  | 65 => ⟨S50000x256, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x256, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x256, .f32⟩
  | 84 => ⟨S850000x256, .f32⟩
  | 85 => ⟨S_, .f32⟩
  | 86 => ⟨S850000, .f32⟩
  | 87 => ⟨S850000x256, .f32⟩
  | 88 => ⟨S_, .f32⟩
  | 89 => ⟨S850000, .f32⟩
  | 90 => ⟨S850000, .f32⟩
  | 91 => ⟨S850000x256, .f32⟩
  | 92 => ⟨S_, .f32⟩
  | 93 => ⟨S850000, .f32⟩
  | 94 => ⟨S850000, .f32⟩
  | 95 => ⟨S850000, .f32⟩
  | 96 => ⟨S_, .f32⟩
  | 97 => ⟨S850000, .f32⟩
  | 98 => ⟨S850000, .f32⟩
  | 99 => ⟨S850000, .f32⟩
  | 100 => ⟨S_, .f32⟩
  | 101 => ⟨S850000, .f32⟩
  | 102 => ⟨S850000, .i1⟩
  | 103 => ⟨S850000, .f32⟩
  | 104 => ⟨S850000x1, .f32⟩
  | 105 => ⟨S850000x256, .f32⟩
  | 106 => ⟨S850000x256, .f32⟩
  | 107 => ⟨S_, .f32⟩
  | 108 => ⟨S50000x256, .f32⟩
  | 109 => ⟨S850000x1, .i32⟩
  | 110 => ⟨S50000x256, .f32⟩
  | 111 => ⟨S256x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000, .f32⟩
  | 118 => ⟨S_, .f32⟩
  | 119 => ⟨S50000, .f32⟩
  | 120 => ⟨S50000, .f32⟩
  | 121 => ⟨S50000x1, .f32⟩
  | 122 => ⟨S50000x64, .f32⟩
  | 123 => ⟨S50000x64, .f32⟩
  | 124 => ⟨S50000x64, .f32⟩
  | 125 => ⟨S_, .f32⟩
  | 126 => ⟨S50000, .f32⟩
  | 127 => ⟨S50000x1, .f32⟩
  | _ => ⟨S50000x128, .f32⟩

abbrev hbmTy0_1 (i : Nat) : BufTy := match i % 128 with
  | 0 => ⟨S50000x1, .f32⟩
  | 1 => ⟨S50000x64, .f32⟩
  | 2 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_call0_v0 : Ref sig .tc := ⟨.hbm, 34, rfl⟩
abbrev main_call0_cst : Ref sig .tc := ⟨.hbm, 35, rfl⟩
abbrev main_call0_v1 : Ref sig .tc := ⟨.hbm, 36, rfl⟩
abbrev main_v23 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call2_cst : Ref sig .tc := ⟨.hbm, 63, rfl⟩
abbrev main_call2_v0 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_call3_v0 : Ref sig .tc := ⟨.hbm, 87, rfl⟩
abbrev main_call3_cst : Ref sig .tc := ⟨.hbm, 88, rfl⟩
abbrev main_call3_v1 : Ref sig .tc := ⟨.hbm, 89, rfl⟩
abbrev main_v60 : Ref sig .tc := ⟨.hbm, 90, rfl⟩
abbrev main_call4_v0 : Ref sig .tc := ⟨.hbm, 91, rfl⟩
abbrev main_call4_cst : Ref sig .tc := ⟨.hbm, 92, rfl⟩
abbrev main_call4_v1 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call5_cst : Ref sig .tc := ⟨.hbm, 116, rfl⟩
abbrev main_call5_v0 : Ref sig .tc := ⟨.hbm, 117, rfl⟩
abbrev main_call5_cst_0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_v6 : Ref sig .tc := ⟨.hbm, 124, rfl⟩
abbrev main_call5_cst_1 : Ref sig .tc := ⟨.hbm, 125, rfl⟩
abbrev main_call5_v7 : Ref sig .tc := ⟨.hbm, 126, rfl⟩
abbrev main_call5_v8 : Ref sig .tc := ⟨.hbm, 127, rfl⟩
abbrev main_call5_v9 : Ref sig .tc := ⟨.hbm, 128, rfl⟩
abbrev main_call5_v10 : Ref sig .tc := ⟨.hbm, 129, rfl⟩
abbrev main_v80 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  reducesTo_S850000x128_S850000_d1 : S850000x128.ReducesTo [1] S850000
  h_S_ : 0 < S_.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S850000x256_S850000_d1 : S850000x256.ReducesTo [1] S850000
  bcast_S850000x1_S850000x256_0_1 : S850000x1.BroadcastsInDim S850000x256 (![0, 1] : Fin 2 → Fin S850000x256.rank)
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []

variable [Facts₀]

def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.RefRun.lean ====
/-
  The reference program's run, read back over its stages.

  The reference is a straight line of host operations. Every weakly fair execution of it ends with each buffer at
  the value the operations compose from the launch memory; the result buffer's value is the last of the stage
  functions (each operation's result as a function of the arguments it depends on), and the arguments end as launched.
  The composition is read back stretch by stretch: the contents a stretch leaves in the buffers later stretches read
  are named by their stage functions before the next stretch is opened, so no stage is ever written out in full.
-/
import proofs.«107164_j5385888989441_1_alg».proof.Proof.RefReadP
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Two facts about contents and the reading of one stretch -/

/-- Contents written at a value's type into its buffer and read back at that type are unchanged. -/
theorem ofBuf_toBuf {Val : EltTy → Type} {T : BufTy} (x : TRef sig T) (v : T.Contents Val) : x.ofBuf (x.toBuf v) = v := by
  obtain ⟨r, rfl, h1, h2⟩ := x
  rfl

/-- Reads each operation's result still standing in the goal (the ones inside a dependent pair are read this way): at
    its own buffer its function's value, at another buffer what was there. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The stretches, the state of the buffers at each cut, and each stretch's step

The line is cut right after each buffer that later operations read more than once. The state at a cut says, of the
arguments and of every buffer written so far that is still read later, that it holds its stage function of the
arguments; nothing else of the contents is remembered. -/

/-- The contents `V` hold the six arguments `x0` … `x5`. -/
abbrev Live0 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5

/-- The first stretch of the line: the 4 operations from the one that writes `main_v0` to the one that writes `main_v3`. -/
abbrev ch1 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- After the first stretch: the arguments are as they were, and each buffer a later stretch still reads (`main_v0`, `main_v3`) holds its stage of the arguments. -/
abbrev Live1 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v0) = val_main_v0 (F := F)
  ∧ V (Proc.devRef .tc main_v3) = val_main_v3 (F := F) x1

set_option maxHeartbeats 2000000 in
/-- The first stretch takes contents in the state before it to contents in the state after it: a buffer it does not
    write keeps its contents, and a buffer it writes holds its operation applied to the stages the operation reads. -/
theorem step1 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live0 V x0 x1 x2 x3 x4 x5) : Live1 (after ch1 V) x0 x1 x2 x3 x4 x5 := by
  obtain ⟨h0, h1, h2, h3, h4, h5⟩ := H
  refine ⟨?_, ?_, ?_, ?_, ?_, ?_, ?_, ?_⟩
  all_goals after_results_simp
  all_goals first | assumption | (results_rw <;> (repeat (first | rw [h0] | rw [h1] | rw [h2] | rw [h3] | rw [h4] | rw [h5])) <;> (try simp only [ofBuf_toBuf]) <;> rfl)

/-- The second stretch of the line: the 3 operations from the one that writes `main_v4` to the one that writes `main_v6`. -/
abbrev ch2 : List (HloOp τ sig (Elt F)) :=
  [ unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- After the second stretch: the arguments are as they were, and each buffer a later stretch still reads (`main_v3`, `main_v6`) holds its stage of the arguments. -/
abbrev Live2 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v3) = val_main_v3 (F := F) x1
  ∧ V (Proc.devRef .tc main_v6) = val_main_v6 (F := F) x1

set_option maxHeartbeats 2000000 in
/-- The second stretch takes contents in the state before it to contents in the state after it: a buffer it does not
    write keeps its contents, and a buffer it writes holds its operation applied to the stages the operation reads. -/
theorem step2 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live1 V x0 x1 x2 x3 x4 x5) : Live2 (after ch2 V) x0 x1 x2 x3 x4 x5 := by
  obtain ⟨h0, h1, h2, h3, h4, h5, h6, h7⟩ := H
  refine ⟨?_, ?_, ?_, ?_, ?_, ?_, ?_, ?_⟩
  all_goals after_results_simp
  all_goals first | assumption | (results_rw <;> (repeat (first | rw [h0] | rw [h1] | rw [h2] | rw [h3] | rw [h4] | rw [h5] | rw [h6] | rw [h7])) <;> (try simp only [ofBuf_toBuf]) <;> rfl)

/-- The third stretch of the line: the 9 operations from the one that writes `main_c` to the one that writes `main_v13`. -/
abbrev ch3 : List (HloOp τ sig (Elt F)) :=
  [ nullary main_c (constantI S_ 32 0#32),
    unary main_c main_v7 (broadcastInDim S850000 ![] bcast_S_S850000 : (⟨S_, .i32⟩ : BufTy).Contents (Elt F) → (⟨S850000, .i32⟩ : BufTy).Contents (Elt F)),
    binary main_v3 main_v7 main_v8 (cmpi .slt : (⟨S850000, .i32⟩ : BufTy).Contents (Elt F) → (⟨S850000, .i32⟩ : BufTy).Contents (Elt F) → (⟨S850000, .i1⟩ : BufTy).Contents (Elt F)),
    nullary main_c_0 (constantI S_ 32 50000#32),
    unary main_c_0 main_v9 (broadcastInDim S850000 ![] bcast_S_S850000 : (⟨S_, .i32⟩ : BufTy).Contents (Elt F) → (⟨S850000, .i32⟩ : BufTy).Contents (Elt F)),
    binary main_v3 main_v9 main_v10 (addi : (⟨S850000, .i32⟩ : BufTy).Contents (Elt F) → (⟨S850000, .i32⟩ : BufTy).Contents (Elt F) → (⟨S850000, .i32⟩ : BufTy).Contents (Elt F)),
    ternary main_v8 main_v10 main_v3 main_v11 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v11 main_v12 (broadcastInDim S850000x1 ![0] bcast_S850000_S850000x1_0 : (⟨S850000, .i32⟩ : BufTy).Contents (Elt F) → (⟨S850000x1, .i32⟩ : BufTy).Contents (Elt F)),
    binary main_arg0 main_v12 main_v13 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) ]

/-- After the third stretch: the arguments are as they were, and each buffer a later stretch still reads (`main_v3`, `main_v6`, `main_v13`) holds its stage of the arguments. -/
abbrev Live3 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v3) = val_main_v3 (F := F) x1
  ∧ V (Proc.devRef .tc main_v6) = val_main_v6 (F := F) x1
  ∧ V (Proc.devRef .tc main_v13) = val_main_v13 (F := F) x0 x1

set_option maxHeartbeats 2000000 in
/-- The third stretch takes contents in the state before it to contents in the state after it: a buffer it does not
    write keeps its contents, and a buffer it writes holds its operation applied to the stages the operation reads. -/
theorem step3 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live2 V x0 x1 x2 x3 x4 x5) : Live3 (after ch3 V) x0 x1 x2 x3 x4 x5 := by
  obtain ⟨h0, h1, h2, h3, h4, h5, h6, h7⟩ := H
  refine ⟨?_, ?_, ?_, ?_, ?_, ?_, ?_, ?_, ?_⟩
  all_goals after_results_simp
  all_goals first | assumption | (results_rw <;> (repeat (first | rw [h0] | rw [h1] | rw [h2] | rw [h3] | rw [h4] | rw [h5] | rw [h6] | rw [h7])) <;> (try simp only [ofBuf_toBuf]) <;> rfl)

/-- The fourth stretch of the line: the 9 operations from the one that writes `main_c_1` to the one that writes `main_v20`. -/
abbrev ch4 : List (HloOp τ sig (Elt F)) :=
  [ nullary main_c_1 (constantI S_ 32 0#32),
    unary main_c_1 main_v14 (broadcastInDim S850000 ![] bcast_S_S850000 : (⟨S_, .i32⟩ : BufTy).Contents (Elt F) → (⟨S850000, .i32⟩ : BufTy).Contents (Elt F)),
    binary main_v6 main_v14 main_v15 (cmpi .slt : (⟨S850000, .i32⟩ : BufTy).Contents (Elt F) → (⟨S850000, .i32⟩ : BufTy).Contents (Elt F) → (⟨S850000, .i1⟩ : BufTy).Contents (Elt F)),
    nullary main_c_2 (constantI S_ 32 50000#32),
    unary main_c_2 main_v16 (broadcastInDim S850000 ![] bcast_S_S850000 : (⟨S_, .i32⟩ : BufTy).Contents (Elt F) → (⟨S850000, .i32⟩ : BufTy).Contents (Elt F)),
    binary main_v6 main_v16 main_v17 (addi : (⟨S850000, .i32⟩ : BufTy).Contents (Elt F) → (⟨S850000, .i32⟩ : BufTy).Contents (Elt F) → (⟨S850000, .i32⟩ : BufTy).Contents (Elt F)),
    ternary main_v15 main_v17 main_v6 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v18 main_v19 (broadcastInDim S850000x1 ![0] bcast_S850000_S850000x1_0 : (⟨S850000, .i32⟩ : BufTy).Contents (Elt F) → (⟨S850000x1, .i32⟩ : BufTy).Contents (Elt F)),
    binary main_arg0 main_v19 main_v20 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) ]

/-- After the fourth stretch: the arguments are as they were, and each buffer a later stretch still reads (`main_v3`, `main_v6`, `main_v13`, `main_v20`) holds its stage of the arguments. -/
abbrev Live4 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v3) = val_main_v3 (F := F) x1
  ∧ V (Proc.devRef .tc main_v6) = val_main_v6 (F := F) x1
  ∧ V (Proc.devRef .tc main_v13) = val_main_v13 (F := F) x0 x1
  ∧ V (Proc.devRef .tc main_v20) = val_main_v20 (F := F) x0 x1

set_option maxHeartbeats 2000000 in
/-- The fourth stretch takes contents in the state before it to contents in the state after it: a buffer it does not
    write keeps its contents, and a buffer it writes holds its operation applied to the stages the operation reads. -/
theorem step4 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live3 V x0 x1 x2 x3 x4 x5) : Live4 (after ch4 V) x0 x1 x2 x3 x4 x5 := by
  obtain ⟨h0, h1, h2, h3, h4, h5, h6, h7, h8⟩ := H
  refine ⟨?_, ?_, ?_, ?_, ?_, ?_, ?_, ?_, ?_, ?_⟩
  all_goals after_results_simp
  all_goals first | assumption | (results_rw <;> (repeat (first | rw [h0] | rw [h1] | rw [h2] | rw [h3] | rw [h4] | rw [h5] | rw [h6] | rw [h7] | rw [h8])) <;> (try simp only [ofBuf_toBuf]) <;> rfl)

/-- The fifth stretch of the line: the 23 operations from the one that writes `main_v21` to the one that writes `main_v34`. -/
abbrev ch5 : List (HloOp τ sig (Elt F)) :=
  [ binary main_v20 main_v13 main_v21 (mulf : (⟨S850000x128, .f32⟩ : BufTy).Contents (Elt F) → (⟨S850000x128, .f32⟩ : BufTy).Contents (Elt F) → (⟨S850000x128, .f32⟩ : BufTy).Contents (Elt F)),
    nullary main_cst (constant S_ .f32 0x00000000#32),
    binary main_v21 main_cst main_v22 ((fun x v => Host.reduceAdd x v reducesTo_S850000x128_S850000_d1 h_S_) : (⟨S850000x128, .f32⟩ : BufTy).Contents (Elt F) → (⟨S_, .f32⟩ : BufTy).Contents (Elt F) → (⟨S850000, .f32⟩ : BufTy).Contents (Elt F)),
    TRef.binary (TRef.of (T := ⟨S850000x128, .f32⟩) main_v20) (TRef.of (T := ⟨S850000x128, .f32⟩) main_v20) (TRef.of (T := ⟨S850000x128, .f32⟩) main_call0_v0) mulf,
    TRef.nullary (TRef.of (T := ⟨S_, .f32⟩) main_call0_cst) (constant S_ .f32 0x00000000#32),
    TRef.binary (TRef.of (T := ⟨S850000x128, .f32⟩) main_call0_v0) (TRef.of (T := ⟨S_, .f32⟩) main_call0_cst) (TRef.of (T := ⟨S850000, .f32⟩) main_call0_v1) (fun x v => Host.reduceAdd x v reducesTo_S850000x128_S850000_d1 h_S_),
    TRef.unary (TRef.of (T := ⟨S850000, .f32⟩) main_call0_v1) (TRef.of (T := ⟨S850000, .f32⟩) main_v23) Host.sqrt,
    TRef.binary (TRef.of (T := ⟨S850000x128, .f32⟩) main_v13) (TRef.of (T := ⟨S850000x128, .f32⟩) main_v13) (TRef.of (T := ⟨S850000x128, .f32⟩) main_call1_v0) mulf,
    TRef.nullary (TRef.of (T := ⟨S_, .f32⟩) main_call1_cst) (constant S_ .f32 0x00000000#32),
    TRef.binary (TRef.of (T := ⟨S850000x128, .f32⟩) main_call1_v0) (TRef.of (T := ⟨S_, .f32⟩) main_call1_cst) (TRef.of (T := ⟨S850000, .f32⟩) main_call1_v1) (fun x v => Host.reduceAdd x v reducesTo_S850000x128_S850000_d1 h_S_),
    TRef.unary (TRef.of (T := ⟨S850000, .f32⟩) main_call1_v1) (TRef.of (T := ⟨S850000, .f32⟩) main_v24) Host.sqrt,
    binary main_v23 main_v24 main_v25 (mulf : (⟨S850000, .f32⟩ : BufTy).Contents (Elt F) → (⟨S850000, .f32⟩ : BufTy).Contents (Elt F) → (⟨S850000, .f32⟩ : BufTy).Contents (Elt F)),
    nullary main_cst_3 (constant S_ .f32 0x322BCC77#32),
    unary main_cst_3 main_v26 (broadcastInDim S850000 ![] bcast_S_S850000 : (⟨S_, .f32⟩ : BufTy).Contents (Elt F) → (⟨S850000, .f32⟩ : BufTy).Contents (Elt F)),
    binary main_v25 main_v26 main_v27 (maximumf : (⟨S850000, .f32⟩ : BufTy).Contents (Elt F) → (⟨S850000, .f32⟩ : BufTy).Contents (Elt F) → (⟨S850000, .f32⟩ : BufTy).Contents (Elt F)),
    binary main_v22 main_v27 main_v28 (Host.divf : (⟨S850000, .f32⟩ : BufTy).Contents (Elt F) → (⟨S850000, .f32⟩ : BufTy).Contents (Elt F) → (⟨S850000, .f32⟩ : BufTy).Contents (Elt F)),
    nullary main_cst_4 (constant S_ .f32 0x3F000000#32),
    unary main_cst_4 main_v29 (broadcastInDim S850000 ![] bcast_S_S850000 : (⟨S_, .f32⟩ : BufTy).Contents (Elt F) → (⟨S850000, .f32⟩ : BufTy).Contents (Elt F)),
    binary main_v28 main_v29 main_v30 (cmpf .ogt : (⟨S850000, .f32⟩ : BufTy).Contents (Elt F) → (⟨S850000, .f32⟩ : BufTy).Contents (Elt F) → (⟨S850000, .i1⟩ : BufTy).Contents (Elt F)),
    unary main_v30 main_v31 (uitofp .f32 : (⟨S850000, .i1⟩ : BufTy).Contents (Elt F) → (⟨S850000, .f32⟩ : BufTy).Contents (Elt F)),
    unary main_v31 main_v32 (broadcastInDim S850000x1 ![0] bcast_S850000_S850000x1_0 : (⟨S850000, .f32⟩ : BufTy).Contents (Elt F) → (⟨S850000x1, .f32⟩ : BufTy).Contents (Elt F)),
    unary main_v32 main_v33 (broadcastInDim S850000x128 ![0, 1] bcast_S850000x1_S850000x128_0_1 : (⟨S850000x1, .f32⟩ : BufTy).Contents (Elt F) → (⟨S850000x128, .f32⟩ : BufTy).Contents (Elt F)),
    binary main_v13 main_v33 main_v34 (mulf : (⟨S850000x128, .f32⟩ : BufTy).Contents (Elt F) → (⟨S850000x128, .f32⟩ : BufTy).Contents (Elt F) → (⟨S850000x128, .f32⟩ : BufTy).Contents (Elt F)) ]

/-- After the fifth stretch: the arguments are as they were, and each buffer a later stretch still reads (`main_v3`, `main_v6`, `main_v34`) holds its stage of the arguments. -/
abbrev Live5 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v3) = val_main_v3 (F := F) x1
  ∧ V (Proc.devRef .tc main_v6) = val_main_v6 (F := F) x1
  ∧ V (Proc.devRef .tc main_v34) = val_main_v34 (F := F) x0 x1

set_option maxHeartbeats 2000000 in
/-- The fifth stretch takes contents in the state before it to contents in the state after it: a buffer it does not
    write keeps its contents, and a buffer it writes holds its operation applied to the stages the operation reads. -/
theorem step5 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live4 V x0 x1 x2 x3 x4 x5) : Live5 (after ch5 V) x0 x1 x2 x3 x4 x5 := by
  obtain ⟨h0, h1, h2, h3, h4, h5, h6, h7, h8, h9⟩ := H
  refine ⟨?_, ?_, ?_, ?_, ?_, ?_, ?_, ?_, ?_⟩
  all_goals after_results_simp
  all_goals first | assumption | (results_rw <;> (repeat (first | rw [h0] | rw [h1] | rw [h2] | rw [h3] | rw [h4] | rw [h5] | rw [h6] | rw [h7] | rw [h8] | rw [h9])) <;> (try simp only [ofBuf_toBuf]) <;> rfl)

/-- The sixth stretch of the line: the 4 operations from the one that writes `main_cst_5` to the one that writes `main_v37`. -/
abbrev ch6 : List (HloOp τ sig (Elt F)) :=
  [ nullary main_cst_5 (constant S_ .f32 0x00000000#32),
    unary main_cst_5 main_v35 (broadcastInDim S50000x128 ![] bcast_S_S50000x128 : (⟨S_, .f32⟩ : BufTy).Contents (Elt F) → (⟨S50000x128, .f32⟩ : BufTy).Contents (Elt F)),
    unary main_v6 main_v36 (broadcastInDim S850000x1 ![0] bcast_S850000_S850000x1_0 : (⟨S850000, .i32⟩ : BufTy).Contents (Elt F) → (⟨S850000x1, .i32⟩ : BufTy).Contents (Elt F)),
    ternary main_v35 main_v36 main_v34 main_v37 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- After the sixth stretch: the arguments are as they were, and each buffer a later stretch still reads (`main_v3`, `main_v6`, `main_v37`) holds its stage of the arguments. -/
abbrev Live6 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v3) = val_main_v3 (F := F) x1
  ∧ V (Proc.devRef .tc main_v6) = val_main_v6 (F := F) x1
  ∧ V (Proc.devRef .tc main_v37) = val_main_v37 (F := F) x0 x1

set_option maxHeartbeats 2000000 in
/-- The sixth stretch takes contents in the state before it to contents in the state after it: a buffer it does not
    write keeps its contents, and a buffer it writes holds its operation applied to the stages the operation reads. -/
theorem step6 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live5 V x0 x1 x2 x3 x4 x5) : Live6 (after ch6 V) x0 x1 x2 x3 x4 x5 := by
  obtain ⟨h0, h1, h2, h3, h4, h5, h6, h7, h8⟩ := H
  refine ⟨?_, ?_, ?_, ?_, ?_, ?_, ?_, ?_, ?_⟩
  all_goals after_results_simp
  all_goals first | assumption | (results_rw <;> (repeat (first | rw [h0] | rw [h1] | rw [h2] | rw [h3] | rw [h4] | rw [h5] | rw [h6] | rw [h7] | rw [h8])) <;> (try simp only [ofBuf_toBuf]) <;> rfl)

/-- The seventh stretch of the line: the 8 operations from the one that writes `main_v38` to the one that writes `main_v43`. -/
abbrev ch7 : List (HloOp τ sig (Elt F)) :=
  [ unary main_arg2 main_v38 ((transpose S128x256 [1, 0] · transposes_S256x128_S128x256_1_0) : (⟨S256x128, .f32⟩ : BufTy).Contents (Elt F) → (⟨S128x256, .f32⟩ : BufTy).Contents (Elt F)),
    binary main_v37 main_v38 main_v39 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v40 (broadcastInDim S1x256 ![1] bcast_S256_S1x256_1 : (⟨S256, .f32⟩ : BufTy).Contents (Elt F) → (⟨S1x256, .f32⟩ : BufTy).Contents (Elt F)),
    unary main_v40 main_v41 (broadcastInDim S50000x256 ![0, 1] bcast_S1x256_S50000x256_0_1 : (⟨S1x256, .f32⟩ : BufTy).Contents (Elt F) → (⟨S50000x256, .f32⟩ : BufTy).Contents (Elt F)),
    binary main_v39 main_v41 main_v42 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v42) (TRef.of (T := ⟨S50000x256, .f32⟩) main_call2_v0) (TRef.of (T := ⟨S50000x256, .f32⟩) main_v43) maximumf ]

/-- After the seventh stretch: the arguments are as they were, and each buffer a later stretch still reads (`main_v3`, `main_v6`, `main_v43`) holds its stage of the arguments. -/
abbrev Live7 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v3) = val_main_v3 (F := F) x1
  ∧ V (Proc.devRef .tc main_v6) = val_main_v6 (F := F) x1
  ∧ V (Proc.devRef .tc main_v43) = val_main_v43 (F := F) x0 x1 x2 x3

set_option maxHeartbeats 2000000 in
/-- The seventh stretch takes contents in the state before it to contents in the state after it: a buffer it does not
    write keeps its contents, and a buffer it writes holds its operation applied to the stages the operation reads. -/
theorem step7 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live6 V x0 x1 x2 x3 x4 x5) : Live7 (after ch7 V) x0 x1 x2 x3 x4 x5 := by
  obtain ⟨h0, h1, h2, h3, h4, h5, h6, h7, h8⟩ := H
  refine ⟨?_, ?_, ?_, ?_, ?_, ?_, ?_, ?_, ?_⟩
  all_goals after_results_simp
  all_goals first | assumption | (results_rw <;> (repeat (first | rw [h0] | rw [h1] | rw [h2] | rw [h3] | rw [h4] | rw [h5] | rw [h6] | rw [h7] | rw [h8])) <;> (try simp only [ofBuf_toBuf]) <;> rfl)

/-- The eighth stretch of the line: the 9 operations from the one that writes `main_c_6` to the one that writes `main_v50`. -/
abbrev ch8 : List (HloOp τ sig (Elt F)) :=
  [ nullary main_c_6 (constantI S_ 32 0#32),
    unary main_c_6 main_v44 (broadcastInDim S850000 ![] bcast_S_S850000 : (⟨S_, .i32⟩ : BufTy).Contents (Elt F) → (⟨S850000, .i32⟩ : BufTy).Contents (Elt F)),
    binary main_v3 main_v44 main_v45 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v46 (broadcastInDim S850000 ![] bcast_S_S850000 : (⟨S_, .i32⟩ : BufTy).Contents (Elt F) → (⟨S850000, .i32⟩ : BufTy).Contents (Elt F)),
    binary main_v3 main_v46 main_v47 (addi : (⟨S850000, .i32⟩ : BufTy).Contents (Elt F) → (⟨S850000, .i32⟩ : BufTy).Contents (Elt F) → (⟨S850000, .i32⟩ : BufTy).Contents (Elt F)),
    ternary main_v45 main_v47 main_v3 main_v48 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v48 main_v49 (broadcastInDim S850000x1 ![0] bcast_S850000_S850000x1_0 : (⟨S850000, .i32⟩ : BufTy).Contents (Elt F) → (⟨S850000x1, .i32⟩ : BufTy).Contents (Elt F)),
    binary main_v43 main_v49 main_v50 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)) ]

/-- After the eighth stretch: the arguments are as they were, and each buffer a later stretch still reads (`main_v6`, `main_v43`, `main_v50`) holds its stage of the arguments. -/
abbrev Live8 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v6) = val_main_v6 (F := F) x1
  ∧ V (Proc.devRef .tc main_v43) = val_main_v43 (F := F) x0 x1 x2 x3
  ∧ V (Proc.devRef .tc main_v50) = val_main_v50 (F := F) x0 x1 x2 x3

set_option maxHeartbeats 2000000 in
/-- The eighth stretch takes contents in the state before it to contents in the state after it: a buffer it does not
    write keeps its contents, and a buffer it writes holds its operation applied to the stages the operation reads. -/
theorem step8 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live7 V x0 x1 x2 x3 x4 x5) : Live8 (after ch8 V) x0 x1 x2 x3 x4 x5 := by
  obtain ⟨h0, h1, h2, h3, h4, h5, h6, h7, h8⟩ := H
  refine ⟨?_, ?_, ?_, ?_, ?_, ?_, ?_, ?_, ?_⟩
  all_goals after_results_simp
  all_goals first | assumption | (results_rw <;> (repeat (first | rw [h0] | rw [h1] | rw [h2] | rw [h3] | rw [h4] | rw [h5] | rw [h6] | rw [h7] | rw [h8])) <;> (try simp only [ofBuf_toBuf]) <;> rfl)

/-- The ninth stretch of the line: the 9 operations from the one that writes `main_c_8` to the one that writes `main_v57`. -/
abbrev ch9 : List (HloOp τ sig (Elt F)) :=
  [ nullary main_c_8 (constantI S_ 32 0#32),
    unary main_c_8 main_v51 (broadcastInDim S850000 ![] bcast_S_S850000 : (⟨S_, .i32⟩ : BufTy).Contents (Elt F) → (⟨S850000, .i32⟩ : BufTy).Contents (Elt F)),
    binary main_v6 main_v51 main_v52 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v53 (broadcastInDim S850000 ![] bcast_S_S850000 : (⟨S_, .i32⟩ : BufTy).Contents (Elt F) → (⟨S850000, .i32⟩ : BufTy).Contents (Elt F)),
    binary main_v6 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v6 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v43 main_v56 main_v57 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)) ]

/-- After the ninth stretch: the arguments are as they were, and each buffer a later stretch still reads (`main_v6`, `main_v50`, `main_v57`) holds its stage of the arguments. -/
abbrev Live9 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v6) = val_main_v6 (F := F) x1
  ∧ V (Proc.devRef .tc main_v50) = val_main_v50 (F := F) x0 x1 x2 x3
  ∧ V (Proc.devRef .tc main_v57) = val_main_v57 (F := F) x0 x1 x2 x3

set_option maxHeartbeats 2000000 in
/-- The ninth stretch takes contents in the state before it to contents in the state after it: a buffer it does not
    write keeps its contents, and a buffer it writes holds its operation applied to the stages the operation reads. -/
theorem step9 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live8 V x0 x1 x2 x3 x4 x5) : Live9 (after ch9 V) x0 x1 x2 x3 x4 x5 := by
  obtain ⟨h0, h1, h2, h3, h4, h5, h6, h7, h8⟩ := H
  refine ⟨?_, ?_, ?_, ?_, ?_, ?_, ?_, ?_, ?_⟩
  all_goals after_results_simp
  all_goals first | assumption | (results_rw <;> (repeat (first | rw [h0] | rw [h1] | rw [h2] | rw [h3] | rw [h4] | rw [h5] | rw [h6] | rw [h7] | rw [h8])) <;> (try simp only [ofBuf_toBuf]) <;> rfl)

/-- The tenth stretch of the line: the 23 operations from the one that writes `main_v58` to the one that writes `main_v71`. -/
abbrev ch10 : List (HloOp τ sig (Elt F)) :=
  [ binary main_v57 main_v50 main_v58 (mulf : (⟨S850000x256, .f32⟩ : BufTy).Contents (Elt F) → (⟨S850000x256, .f32⟩ : BufTy).Contents (Elt F) → (⟨S850000x256, .f32⟩ : BufTy).Contents (Elt F)),
    nullary main_cst_10 (constant S_ .f32 0x00000000#32),
    binary main_v58 main_cst_10 main_v59 ((fun x v => Host.reduceAdd x v reducesTo_S850000x256_S850000_d1 h_S_) : (⟨S850000x256, .f32⟩ : BufTy).Contents (Elt F) → (⟨S_, .f32⟩ : BufTy).Contents (Elt F) → (⟨S850000, .f32⟩ : BufTy).Contents (Elt F)),
    TRef.binary (TRef.of (T := ⟨S850000x256, .f32⟩) main_v57) (TRef.of (T := ⟨S850000x256, .f32⟩) main_v57) (TRef.of (T := ⟨S850000x256, .f32⟩) main_call3_v0) mulf,
    TRef.nullary (TRef.of (T := ⟨S_, .f32⟩) main_call3_cst) (constant S_ .f32 0x00000000#32),
    TRef.binary (TRef.of (T := ⟨S850000x256, .f32⟩) main_call3_v0) (TRef.of (T := ⟨S_, .f32⟩) main_call3_cst) (TRef.of (T := ⟨S850000, .f32⟩) main_call3_v1) (fun x v => Host.reduceAdd x v reducesTo_S850000x256_S850000_d1 h_S_),
    TRef.unary (TRef.of (T := ⟨S850000, .f32⟩) main_call3_v1) (TRef.of (T := ⟨S850000, .f32⟩) main_v60) Host.sqrt,
    TRef.binary (TRef.of (T := ⟨S850000x256, .f32⟩) main_v50) (TRef.of (T := ⟨S850000x256, .f32⟩) main_v50) (TRef.of (T := ⟨S850000x256, .f32⟩) main_call4_v0) mulf,
    TRef.nullary (TRef.of (T := ⟨S_, .f32⟩) main_call4_cst) (constant S_ .f32 0x00000000#32),
    TRef.binary (TRef.of (T := ⟨S850000x256, .f32⟩) main_call4_v0) (TRef.of (T := ⟨S_, .f32⟩) main_call4_cst) (TRef.of (T := ⟨S850000, .f32⟩) main_call4_v1) (fun x v => Host.reduceAdd x v reducesTo_S850000x256_S850000_d1 h_S_),
    TRef.unary (TRef.of (T := ⟨S850000, .f32⟩) main_call4_v1) (TRef.of (T := ⟨S850000, .f32⟩) main_v61) Host.sqrt,
    binary main_v60 main_v61 main_v62 (mulf : (⟨S850000, .f32⟩ : BufTy).Contents (Elt F) → (⟨S850000, .f32⟩ : BufTy).Contents (Elt F) → (⟨S850000, .f32⟩ : BufTy).Contents (Elt F)),
    nullary main_cst_11 (constant S_ .f32 0x322BCC77#32),
    unary main_cst_11 main_v63 (broadcastInDim S850000 ![] bcast_S_S850000 : (⟨S_, .f32⟩ : BufTy).Contents (Elt F) → (⟨S850000, .f32⟩ : BufTy).Contents (Elt F)),
    binary main_v62 main_v63 main_v64 (maximumf : (⟨S850000, .f32⟩ : BufTy).Contents (Elt F) → (⟨S850000, .f32⟩ : BufTy).Contents (Elt F) → (⟨S850000, .f32⟩ : BufTy).Contents (Elt F)),
    binary main_v59 main_v64 main_v65 (Host.divf : (⟨S850000, .f32⟩ : BufTy).Contents (Elt F) → (⟨S850000, .f32⟩ : BufTy).Contents (Elt F) → (⟨S850000, .f32⟩ : BufTy).Contents (Elt F)),
    nullary main_cst_12 (constant S_ .f32 0x3F000000#32),
    unary main_cst_12 main_v66 (broadcastInDim S850000 ![] bcast_S_S850000 : (⟨S_, .f32⟩ : BufTy).Contents (Elt F) → (⟨S850000, .f32⟩ : BufTy).Contents (Elt F)),
    binary main_v65 main_v66 main_v67 (cmpf .ogt : (⟨S850000, .f32⟩ : BufTy).Contents (Elt F) → (⟨S850000, .f32⟩ : BufTy).Contents (Elt F) → (⟨S850000, .i1⟩ : BufTy).Contents (Elt F)),
    unary main_v67 main_v68 (uitofp .f32 : (⟨S850000, .i1⟩ : BufTy).Contents (Elt F) → (⟨S850000, .f32⟩ : BufTy).Contents (Elt F)),
    unary main_v68 main_v69 (broadcastInDim S850000x1 ![0] bcast_S850000_S850000x1_0 : (⟨S850000, .f32⟩ : BufTy).Contents (Elt F) → (⟨S850000x1, .f32⟩ : BufTy).Contents (Elt F)),
    unary main_v69 main_v70 (broadcastInDim S850000x256 ![0, 1] bcast_S850000x1_S850000x256_0_1 : (⟨S850000x1, .f32⟩ : BufTy).Contents (Elt F) → (⟨S850000x256, .f32⟩ : BufTy).Contents (Elt F)),
    binary main_v50 main_v70 main_v71 (mulf : (⟨S850000x256, .f32⟩ : BufTy).Contents (Elt F) → (⟨S850000x256, .f32⟩ : BufTy).Contents (Elt F) → (⟨S850000x256, .f32⟩ : BufTy).Contents (Elt F)) ]

/-- After the tenth stretch: the arguments are as they were, and each buffer a later stretch still reads (`main_v6`, `main_v71`) holds its stage of the arguments. -/
abbrev Live10 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v6) = val_main_v6 (F := F) x1
  ∧ V (Proc.devRef .tc main_v71) = val_main_v71 (F := F) x0 x1 x2 x3

set_option maxHeartbeats 2000000 in
/-- The tenth stretch takes contents in the state before it to contents in the state after it: a buffer it does not
    write keeps its contents, and a buffer it writes holds its operation applied to the stages the operation reads. -/
theorem step10 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live9 V x0 x1 x2 x3 x4 x5) : Live10 (after ch10 V) x0 x1 x2 x3 x4 x5 := by
  obtain ⟨h0, h1, h2, h3, h4, h5, h6, h7, h8⟩ := H
  refine ⟨?_, ?_, ?_, ?_, ?_, ?_, ?_, ?_⟩
  all_goals after_results_simp
  all_goals first | assumption | (results_rw <;> (repeat (first | rw [h0] | rw [h1] | rw [h2] | rw [h3] | rw [h4] | rw [h5] | rw [h6] | rw [h7] | rw [h8])) <;> (try simp only [ofBuf_toBuf]) <;> rfl)

/-- The eleventh stretch of the line: the 4 operations from the one that writes `main_cst_13` to the one that writes `main_v74`. -/
abbrev ch11 : List (HloOp τ sig (Elt F)) :=
  [ nullary main_cst_13 (constant S_ .f32 0x00000000#32),
    unary main_cst_13 main_v72 (broadcastInDim S50000x256 ![] bcast_S_S50000x256 : (⟨S_, .f32⟩ : BufTy).Contents (Elt F) → (⟨S50000x256, .f32⟩ : BufTy).Contents (Elt F)),
    unary main_v6 main_v73 (broadcastInDim S850000x1 ![0] bcast_S850000_S850000x1_0 : (⟨S850000, .i32⟩ : BufTy).Contents (Elt F) → (⟨S850000x1, .i32⟩ : BufTy).Contents (Elt F)),
    ternary main_v72 main_v73 main_v71 main_v74 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- After the eleventh stretch: the arguments are as they were, and each buffer a later stretch still reads (`main_v74`) holds its stage of the arguments. -/
abbrev Live11 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v74) = val_main_v74 (F := F) x0 x1 x2 x3

set_option maxHeartbeats 2000000 in
/-- The eleventh stretch takes contents in the state before it to contents in the state after it: a buffer it does not
    write keeps its contents, and a buffer it writes holds its operation applied to the stages the operation reads. -/
theorem step11 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live10 V x0 x1 x2 x3 x4 x5) : Live11 (after ch11 V) x0 x1 x2 x3 x4 x5 := by
  obtain ⟨h0, h1, h2, h3, h4, h5, h6, h7⟩ := H
  refine ⟨?_, ?_, ?_, ?_, ?_, ?_, ?_⟩
  all_goals after_results_simp
  all_goals first | assumption | (results_rw <;> (repeat (first | rw [h0] | rw [h1] | rw [h2] | rw [h3] | rw [h4] | rw [h5] | rw [h6] | rw [h7])) <;> (try simp only [ofBuf_toBuf]) <;> rfl)

/-- The twelfth stretch of the line: the 5 operations from the one that writes `main_v75` to the one that writes `main_v79`. -/
abbrev ch12 : List (HloOp τ sig (Elt F)) :=
  [ unary main_arg4 main_v75 ((transpose S256x64 [1, 0] · transposes_S64x256_S256x64_1_0) : (⟨S64x256, .f32⟩ : BufTy).Contents (Elt F) → (⟨S256x64, .f32⟩ : BufTy).Contents (Elt F)),
    binary main_v74 main_v75 main_v76 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg5 main_v77 (broadcastInDim S1x64 ![1] bcast_S64_S1x64_1 : (⟨S64, .f32⟩ : BufTy).Contents (Elt F) → (⟨S1x64, .f32⟩ : BufTy).Contents (Elt F)),
    unary main_v77 main_v78 (broadcastInDim S50000x64 ![0, 1] bcast_S1x64_S50000x64_0_1 : (⟨S1x64, .f32⟩ : BufTy).Contents (Elt F) → (⟨S50000x64, .f32⟩ : BufTy).Contents (Elt F)),
    binary main_v76 main_v78 main_v79 (addf : (⟨S50000x64, .f32⟩ : BufTy).Contents (Elt F) → (⟨S50000x64, .f32⟩ : BufTy).Contents (Elt F) → (⟨S50000x64, .f32⟩ : BufTy).Contents (Elt F)) ]

/-- After the twelfth stretch: the arguments are as they were, and each buffer a later stretch still reads (`main_v79`) holds its stage of the arguments. -/
abbrev Live12 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v79) = val_main_v79 (F := F) x0 x1 x2 x3 x4 x5

set_option maxHeartbeats 2000000 in
/-- The twelfth stretch takes contents in the state before it to contents in the state after it: a buffer it does not
    write keeps its contents, and a buffer it writes holds its operation applied to the stages the operation reads. -/
theorem step12 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live11 V x0 x1 x2 x3 x4 x5) : Live12 (after ch12 V) x0 x1 x2 x3 x4 x5 := by
  obtain ⟨h0, h1, h2, h3, h4, h5, h6⟩ := H
  refine ⟨?_, ?_, ?_, ?_, ?_, ?_, ?_⟩
  all_goals after_results_simp
  all_goals first | assumption | (results_rw <;> (repeat (first | rw [h0] | rw [h1] | rw [h2] | rw [h3] | rw [h4] | rw [h5] | rw [h6])) <;> (try simp only [ofBuf_toBuf]) <;> rfl)

/-- The thirteenth stretch of the line: the 8 operations from the one that writes `main_call5_cst` to the one that writes `main_call5_v5`. -/
abbrev ch13 : List (HloOp τ sig (Elt F)) :=
  [ TRef.nullary (TRef.of (T := ⟨S_, .f32⟩) main_call5_cst) (constant S_ .f32 0xFF800000#32),
    TRef.binary (TRef.of (T := ⟨S50000x64, .f32⟩) main_v79) (TRef.of (T := ⟨S_, .f32⟩) main_call5_cst) (TRef.of (T := ⟨S50000, .f32⟩) main_call5_v0) (fun x v => Host.reduce FloatOps.maximumf x v reducesTo_S50000x64_S50000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_call5_v0) (TRef.of (T := ⟨S50000, .f32⟩) main_call5_v2) maximumf,
    TRef.unary (TRef.of (T := ⟨S50000, .f32⟩) main_call5_v2) (TRef.of (T := ⟨S50000x1, .f32⟩) main_call5_v3) (broadcastInDim S50000x1 ![0] bcast_S50000_S50000x1_0),
    TRef.unary (TRef.of (T := ⟨S50000x1, .f32⟩) main_call5_v3) (TRef.of (T := ⟨S50000x64, .f32⟩) main_call5_v4) (broadcastInDim S50000x64 ![0, 1] bcast_S50000x1_S50000x64_0_1),
    TRef.binary (TRef.of (T := ⟨S50000x64, .f32⟩) main_v79) (TRef.of (T := ⟨S50000x64, .f32⟩) main_call5_v4) (TRef.of (T := ⟨S50000x64, .f32⟩) main_call5_v5) subf ]

/-- After the thirteenth stretch: the arguments are as they were, and each buffer a later stretch still reads (`main_call5_v5`) holds its stage of the arguments. -/
abbrev Live13 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_call5_v5) = val_main_call5_v5 (F := F) x0 x1 x2 x3 x4 x5

set_option maxHeartbeats 2000000 in
/-- The thirteenth stretch takes contents in the state before it to contents in the state after it: a buffer it does not
    write keeps its contents, and a buffer it writes holds its operation applied to the stages the operation reads. -/
theorem step13 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live12 V x0 x1 x2 x3 x4 x5) : Live13 (after ch13 V) x0 x1 x2 x3 x4 x5 := by
  obtain ⟨h0, h1, h2, h3, h4, h5, h6⟩ := H
  refine ⟨?_, ?_, ?_, ?_, ?_, ?_, ?_⟩
  all_goals after_results_simp
  all_goals first | assumption | (results_rw <;> (repeat (first | rw [h0] | rw [h1] | rw [h2] | rw [h3] | rw [h4] | rw [h5] | rw [h6])) <;> (try simp only [ofBuf_toBuf]) <;> rfl)

/-- The fourteenth stretch of the line: the 7 operations from the one that writes `main_call5_v6` to the one that writes `main_v80`. -/
abbrev ch14 : List (HloOp τ sig (Elt F)) :=
  [ TRef.unary (TRef.of (T := ⟨S50000x64, .f32⟩) main_call5_v5) (TRef.of (T := ⟨S50000x64, .f32⟩) main_call5_v6) Host.exp,
    TRef.nullary (TRef.of (T := ⟨S_, .f32⟩) main_call5_cst_1) (constant S_ .f32 0x00000000#32),
    TRef.binary (TRef.of (T := ⟨S50000x64, .f32⟩) main_call5_v6) (TRef.of (T := ⟨S_, .f32⟩) main_call5_cst_1) (TRef.of (T := ⟨S50000, .f32⟩) main_call5_v7) (fun x v => Host.reduceAdd x v reducesTo_S50000x64_S50000_d1 h_S_),
    TRef.unary (TRef.of (T := ⟨S50000, .f32⟩) main_call5_v7) (TRef.of (T := ⟨S50000x1, .f32⟩) main_call5_v8) (broadcastInDim S50000x1 ![0] bcast_S50000_S50000x1_0),
    TRef.unary (TRef.of (T := ⟨S50000x1, .f32⟩) main_call5_v8) (TRef.of (T := ⟨S50000x1, .f32⟩) main_call5_v9) Host.log,
    TRef.unary (TRef.of (T := ⟨S50000x1, .f32⟩) main_call5_v9) (TRef.of (T := ⟨S50000x64, .f32⟩) main_call5_v10) (broadcastInDim S50000x64 ![0, 1] bcast_S50000x1_S50000x64_0_1),
    TRef.binary (TRef.of (T := ⟨S50000x64, .f32⟩) main_call5_v5) (TRef.of (T := ⟨S50000x64, .f32⟩) main_call5_v10) (TRef.of (T := ⟨S50000x64, .f32⟩) main_v80) subf ]

/-- After the fourteenth stretch: the arguments are as they were, and the result buffer `main_v80` holds the last stage of the arguments. -/
abbrev Live14 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_v80) = val_main_v80 (F := F) x0 x1 x2 x3 x4 x5

set_option maxHeartbeats 2000000 in
/-- The fourteenth stretch takes contents in the state before it to contents in the state after it: a buffer it does not
    write keeps its contents, and a buffer it writes holds its operation applied to the stages the operation reads. -/
theorem step14 (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live13 V x0 x1 x2 x3 x4 x5) : Live14 (after ch14 V) x0 x1 x2 x3 x4 x5 := by
  obtain ⟨h0, h1, h2, h3, h4, h5, h6⟩ := H
  refine ⟨?_, ?_, ?_, ?_, ?_, ?_, ?_⟩
  all_goals after_results_simp
  all_goals first | assumption | (results_rw <;> (repeat (first | rw [h0] | rw [h1] | rw [h2] | rw [h3] | rw [h4] | rw [h5] | rw [h6])) <;> (try simp only [ofBuf_toBuf]) <;> rfl)

/-! ## The whole line -/

/-- The contents after two stretches run one after the other are the second's from the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
/-- The whole line is the fourteen stretches in order. -/
theorem ops_cut : (ops : List (HloOp τ sig (Elt F)))
    = ch1 ++ ch2 ++ ch3 ++ ch4 ++ ch5 ++ ch6 ++ ch7 ++ ch8 ++ ch9 ++ ch10 ++ ch11 ++ ch12 ++ ch13 ++ ch14 := rfl

/-- From contents that hold the arguments, the whole line leaves the result buffer at the last stage of the arguments
    and the arguments as they were. -/
theorem after_ops (V : Valuation τ sig (Elt F)) (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (H : Live0 V x0 x1 x2 x3 x4 x5) : Live14 (after ops V) x0 x1 x2 x3 x4 x5 := by
  rw [ops_cut]
  simp only [after_app]
  exact step14 _ x0 x1 x2 x3 x4 x5 (step13 _ x0 x1 x2 x3 x4 x5 (step12 _ x0 x1 x2 x3 x4 x5 (step11 _ x0 x1 x2 x3 x4 x5 (step10 _ x0 x1 x2 x3 x4 x5 (step9 _ x0 x1 x2 x3 x4 x5 (step8 _ x0 x1 x2 x3 x4 x5 (step7 _ x0 x1 x2 x3 x4 x5 (step6 _ x0 x1 x2 x3 x4 x5 (step5 _ x0 x1 x2 x3 x4 x5 (step4 _ x0 x1 x2 x3 x4 x5 (step3 _ x0 x1 x2 x3 x4 x5 (step2 _ x0 x1 x2 x3 x4 x5 (step1 V x0 x1 x2 x3 x4 x5 H)))))))))))))

/-- Every weakly fair execution of the reference terminates with the result buffer at the last stage of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨a0, a1, a2, a3, a4, a5, hv⟩ := after_ops (F := F) (launchContents m c)
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        ⟨rfl, rfl, rfl, rfl, rfl, rfl⟩
      exact ⟨(h c main_v80).trans hv, (h c main_arg0).trans a0, (h c main_arg1).trans a1, (h c main_arg2).trans a2,
        (h c main_arg3).trans a3, (h c main_arg4).trans a4, (h c main_arg5).trans a5⟩)
    (run_seq scopedRefs_eq scopedSems_eq defs main (fun _ => ops) main_eq (fun _ => ops_sub) m ρ)

end Cert.ReferenceIdeal.RefRun

end
-- ==== Proof.LibCosine.lean ====
/-
  The weight of an edge by the cosine of its two end rows, at the ideal values.

  For a target row `a` and a source row `b` of `D` extended reals the edge's weight is `1` when
  `(∑ a·b) / max (√(∑ a²) · √(∑ b²)) ε` exceeds `1/2` and `0` otherwise, `ε` the number the word `0x322BCC77` encodes.
  A kernel computes it on a tile of rows with lane sums kept as a column `[R, 1]`, its own square root and quotient, a
  compare widened to a 32-bit integer and converted as signed, and a lane broadcast of the column; the plain program
  computes it on all rows with host sums from a zero initial value, the host's square root and quotient, the compare
  converted as unsigned, and two broadcasts. Over the extended reals both are row by row `b (r, k) · cosMask a b`: the
  two square roots and the two quotients are one function each, a one-bit word widened and read signed is the word
  read unsigned, and a sum from zero is the sum. Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The weight of an edge whose target row is `a` and whose source row is `b`: `1` when their cosine, with the
    denominator kept at least `ε`, exceeds `1/2`, else `0`. -/
def cosMask {D : ℕ} (a b : Fin D → EReal) : EReal :=
  (((Ideal.cmp .ogt
      (Ideal.div (∑ k, a k * b k)
        (max (Ideal.sqrt (∑ k, a k * a k) * Ideal.sqrt (∑ k, b k * b k)) (Ideal.ofBits .f32 0x322BCC77#32)))
      (Ideal.ofBits .f32 0x3F000000#32)).toNat : ℝ) : EReal)

/-! ## The layout steps and the two row sums -/

section Layout
variable {α : Type}

/-- A column `[a, 1]` broadcast along `b` lanes reads, at `(p, c)`, the column at `(p, 0)`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`, whatever the unit coordinate `u`:
    the row-major position `i · 1 + u` is `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector `[a]` made a column `[a, 1]` and then broadcast along `b` lanes reads, at `(p, c)`, the vector at `p`. -/
private theorem column_rows_apply {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) := by
  rw [broadcastInDim_apply _ h2 _ (ix2 p c) (ix2 p (0 : Fin 1)) (fun ax => by
    match ax with
    | ⟨0, _⟩ => show p.val = if a = 1 then 0 else p.val; split <;> [(have := p.isLt; omega); rfl]
    | ⟨1, _⟩ => show (0 : ℕ) = if (1 : ℕ) = 1 then 0 else c.val; rw [if_pos rfl])]
  exact broadcastInDim_apply _ h1 v (ix2 p (0 : Fin 1)) (ix1 p) (fun ax => by
    match ax with
    | ⟨0, _⟩ => show p.val = if a = 1 then 0 else p.val; split <;> [(have := p.isLt; omega); rfl])

end Layout

/-- The lane sum of a `[R, D]` tile at row `r` is `∑ k < D` of the tile at `(r, k)`: the index over `r` with the lane
    `k` put back on axis 1 is `(r, k)`. -/
private theorem rowSum_kernel {R D : ℕ} (hr : (⟨2, ![R, D]⟩ : Shape).Reduces [1] ⟨1, ![R]⟩)
    (hφ : FKind.Formats FTy.f32) (hacc : (0x00000000#32 : BitVec FTy.f32.bits) = FKind.add.neutral .f32 hφ)
    (v : FVec Ideal ⟨2, ![R, D]⟩ .f32) (r : Fin R) :
    multiReduction .add [1] ⟨1, ![R]⟩ v 0x00000000#32 hr hφ hacc (ix1 r) = ∑ k : Fin D, v (ix2 r k) := by
  rw [Ideal.multiReduction_add_single]
  refine Finset.sum_congr rfl fun k _ => congrArg v ?_
  funext c
  match c with
  | ⟨0, _⟩ => rfl
  | ⟨1, _⟩ => rfl

/-- The host's sum over axis 1 of an `[E, D]` array from the initial value zero, at row `e`, is the same sum: the
    initial value's word denotes `0`, and `0 + s = s`. -/
private theorem rowSum_host {E D : ℕ} (hr : (⟨2, ![E, D]⟩ : Shape).ReducesTo [1] ⟨1, ![E]⟩)
    (h0 : 0 < (⟨0, ![]⟩ : Shape).numel) (v : FVec Ideal ⟨2, ![E, D]⟩ .f32) (e : Fin E) :
    Host.reduceAdd v (constant (F := Ideal) ⟨0, ![]⟩ .f32 0x00000000#32) hr h0 (ix1 e) = ∑ k : Fin D, v (ix2 e k) := by
  have hR : (⟨2, ![E, D]⟩ : Shape).Reduces [1] ⟨1, ![E]⟩ := ⟨hr.1, Nat.one_pos, hr.2⟩
  show Ideal.hostReduceAdd hr v (Ideal.ofBits .f32 0x00000000#32) (ix1 e) = _
  rw [Ideal.hostReduceAdd_single hr hR, Ideal.ofBits_zero_f32, zero_add]
  refine Finset.sum_congr rfl fun k _ => congrArg v ?_
  funext c
  match c with
  | ⟨0, _⟩ => rfl
  | ⟨1, _⟩ => rfl

/-- A one-bit word widened to 32 bits by zeros and read as a signed integer is the word read unsigned: both are `0`
    for the word `0` and `1` for the word `1`. -/
private theorem bit_signed_eq_unsigned (w : BitVec 1) :
    (((w.setWidth 32).toInt : ℝ) : EReal) = ((w.toNat : ℝ) : EReal) := by
  have h : (w.setWidth 32).toInt = (w.toNat : ℤ) := by
    rcases BitVec.eq_zero_or_eq_one w with h | h <;> subst h <;> decide
  rw [h, Int.cast_natCast]

/-! ## The two programs' rows -/

/-- THE KERNEL'S TILE: the body's value of a `[R, D]` tile of target rows `x0` and source rows `x1`, read at `(r, k)`,
    is the source element times the weight of row `r`. The left-hand side is the body's arithmetic operation by
    operation (identity casts of the two loads; three lane sums reshaped to columns; square roots, product, the floor
    `ε`, quotient; compare with `1/2`, widened, converted; broadcast along the lanes; product with the source). -/
theorem edge_rows_kernel {R D : ℕ}
    (hc : (⟨2, ![R, D]⟩ : Shape).ShapeCasts ⟨2, ![R, D]⟩)
    (hr : (⟨2, ![R, D]⟩ : Shape).Reduces [1] ⟨1, ![R]⟩)
    (hφ : FKind.Formats FTy.f32) (hacc : (0x00000000#32 : BitVec FTy.f32.bits) = FKind.add.neutral .f32 hφ)
    (hc1 : (⟨1, ![R]⟩ : Shape).ShapeCasts ⟨2, ![R, 1]⟩)
    (hb : (⟨2, ![R, 1]⟩ : Shape).Broadcasts ⟨2, ![R, D]⟩)
    (hlt : 1 < 32)
    (x0 x1 : FVec Ideal ⟨2, ![R, D]⟩ .f32) (r : Fin R) (k : Fin D) :
    mulf (F := Ideal) (shapeCast ⟨2, ![R, D]⟩ x1 hc)
        (broadcastTo ⟨2, ![R, D]⟩
          (sitofp .f32 (extui 32
            (cmpf .ogt
              (divf
                (shapeCast ⟨2, ![R, 1]⟩ (multiReduction .add [1] ⟨1, ![R]⟩
                  (mulf (shapeCast ⟨2, ![R, D]⟩ x0 hc) (shapeCast ⟨2, ![R, D]⟩ x1 hc)) 0x00000000#32 hr hφ hacc) hc1)
                (maximumf
                  (mulf
                    (sqrt (shapeCast ⟨2, ![R, 1]⟩ (multiReduction .add [1] ⟨1, ![R]⟩
                      (mulf (shapeCast ⟨2, ![R, D]⟩ x0 hc) (shapeCast ⟨2, ![R, D]⟩ x0 hc)) 0x00000000#32 hr hφ hacc) hc1))
                    (sqrt (shapeCast ⟨2, ![R, 1]⟩ (multiReduction .add [1] ⟨1, ![R]⟩
                      (mulf (shapeCast ⟨2, ![R, D]⟩ x1 hc) (shapeCast ⟨2, ![R, D]⟩ x1 hc)) 0x00000000#32 hr hφ hacc) hc1)))
                  (broadcast ⟨2, ![R, 1]⟩ (Scalar.ofBits (F := Ideal) .f32 0x322BCC77#32))))
              (broadcast ⟨2, ![R, 1]⟩ (Scalar.ofBits (F := Ideal) .f32 0x3F000000#32)))
            hlt))
          hb) (ix2 r k)
      = x1 (ix2 r k) * cosMask (fun k => x0 (ix2 r k)) (fun k => x1 (ix2 r k)) := by
  -- the three lane sums kept as columns, read at `(r, 0)`
  have hS : ∀ u v : FVec Ideal ⟨2, ![R, D]⟩ .f32,
      shapeCast ⟨2, ![R, 1]⟩ (multiReduction .add [1] ⟨1, ![R]⟩ (mulf u v) 0x00000000#32 hr hφ hacc) hc1
        (ix2 r (0 : Fin 1)) = ∑ k : Fin D, u (ix2 r k) * v (ix2 r k) := fun u v => by
    rw [shapeCast_a_a1_apply, rowSum_kernel]
    rfl
  -- the identity casts go; the product and the lane broadcast read the weight's column at `(r, 0)`
  simp only [shapeCast_self]
  rw [mulf_apply, broadcastTo_a1_ab_apply]
  -- every remaining operation is elementwise: at `(r, 0)` it is the extended reals' operation on the columns' elements
  show x1 (ix2 r k) * (((((Ideal.cmp .ogt
      (Ideal.div (shapeCast ⟨2, ![R, 1]⟩ (multiReduction .add [1] ⟨1, ![R]⟩ (mulf x0 x1) 0x00000000#32 hr hφ hacc) hc1 (ix2 r (0 : Fin 1)))
        (max (Ideal.sqrt (shapeCast ⟨2, ![R, 1]⟩ (multiReduction .add [1] ⟨1, ![R]⟩ (mulf x0 x0) 0x00000000#32 hr hφ hacc) hc1 (ix2 r (0 : Fin 1)))
              * Ideal.sqrt (shapeCast ⟨2, ![R, 1]⟩ (multiReduction .add [1] ⟨1, ![R]⟩ (mulf x1 x1) 0x00000000#32 hr hφ hacc) hc1 (ix2 r (0 : Fin 1))))
          (Ideal.ofBits .f32 0x322BCC77#32)))
      (Ideal.ofBits .f32 0x3F000000#32)).setWidth 32).toInt : ℝ) : EReal)) = _
  rw [hS, hS, hS, bit_signed_eq_unsigned]
  rfl

/-- THE PLAIN PROGRAM'S ROWS: the same weight from host operations over all `E` rows, target rows `xi` and source rows
    `xj`, read at `(e, k)`. -/
theorem edge_rows_host {E D : ℕ}
    (hr : (⟨2, ![E, D]⟩ : Shape).ReducesTo [1] ⟨1, ![E]⟩) (h0 : 0 < (⟨0, ![]⟩ : Shape).numel)
    (hb0 : (⟨0, ![]⟩ : Shape).BroadcastsInDim ⟨1, ![E]⟩ (![] : Fin 0 → Fin 1))
    (hb1 : (⟨1, ![E]⟩ : Shape).BroadcastsInDim ⟨2, ![E, 1]⟩ (![0] : Fin 1 → Fin 2))
    (hb2 : (⟨2, ![E, 1]⟩ : Shape).BroadcastsInDim ⟨2, ![E, D]⟩ (![0, 1] : Fin 2 → Fin 2))
    (xi xj : FVec Ideal ⟨2, ![E, D]⟩ .f32) (e : Fin E) (k : Fin D) :
    mulf xj
        (broadcastInDim ⟨2, ![E, D]⟩ ![0, 1] hb2
          (broadcastInDim ⟨2, ![E, 1]⟩ ![0] hb1
            (uitofp .f32
              (cmpf .ogt
                (Host.divf
                  (Host.reduceAdd (mulf xi xj) (constant (F := Ideal) ⟨0, ![]⟩ .f32 0x00000000#32) hr h0)
                  (maximumf
                    (mulf
                      (Host.sqrt (Host.reduceAdd (mulf xi xi) (constant (F := Ideal) ⟨0, ![]⟩ .f32 0x00000000#32) hr h0))
                      (Host.sqrt (Host.reduceAdd (mulf xj xj) (constant (F := Ideal) ⟨0, ![]⟩ .f32 0x00000000#32) hr h0)))
                    (broadcastInDim ⟨1, ![E]⟩ ![] hb0 (constant (F := Ideal) ⟨0, ![]⟩ .f32 0x322BCC77#32))))
                (broadcastInDim ⟨1, ![E]⟩ ![] hb0 (constant (F := Ideal) ⟨0, ![]⟩ .f32 0x3F000000#32)))))) (ix2 e k)
      = xj (ix2 e k) * cosMask (fun k => xi (ix2 e k)) (fun k => xj (ix2 e k)) := by
  -- the three host sums, read at `e`
  have hS : ∀ u v : FVec Ideal ⟨2, ![E, D]⟩ .f32,
      Host.reduceAdd (mulf u v) (constant (F := Ideal) ⟨0, ![]⟩ .f32 0x00000000#32) hr h0 (ix1 e)
        = ∑ k : Fin D, u (ix2 e k) * v (ix2 e k) := fun u v => by
    rw [rowSum_host]
    rfl
  -- the product and the two broadcasts read the weight vector at `e`
  rw [mulf_apply, column_rows_apply]
  -- every remaining operation is elementwise, and a scalar broadcast to a vector reads the scalar everywhere
  show xj (ix2 e k) * ((((Ideal.cmp .ogt
      (Ideal.div (Host.reduceAdd (mulf xi xj) (constant (F := Ideal) ⟨0, ![]⟩ .f32 0x00000000#32) hr h0 (ix1 e))
        (max (Ideal.sqrt (Host.reduceAdd (mulf xi xi) (constant (F := Ideal) ⟨0, ![]⟩ .f32 0x00000000#32) hr h0 (ix1 e))
              * Ideal.sqrt (Host.reduceAdd (mulf xj xj) (constant (F := Ideal) ⟨0, ![]⟩ .f32 0x00000000#32) hr h0 (ix1 e)))
          (Ideal.ofBits .f32 0x322BCC77#32)))
      (Ideal.ofBits .f32 0x3F000000#32)).toNat : ℝ) : EReal)) = _
  rw [hS, hS, hS]
  rfl

end Cert.Lib

end
-- ==== Proof.KEdge.lean ====
/-
  The two edge-weighting calls of the kernel's program: what each leaves in its output array.

  Each call walks its `[851968, D]` arrays in 416 tiles of 2048 rows (D = 128 for the first, 256 for the second); tile
  `t` reads rows `2048 t … 2048 t + 2047` of the target-row array and of the source-row array and writes the same rows
  of the output. Row by row the tile's body is the source row scaled by the edge's weight (the cosine test of the two
  rows), so the whole output array is, at `(e, k)`, the source array at `(e, k)` times the weight of row `e`: the tiles
  are restrictions of that one function and they cover the array.
-/
import proofs.«107164_j5385888989441_1_alg».proof.Proof.Gen.KernelIdeal.Frame
import proofs.«107164_j5385888989441_1_alg».proof.Proof.LibCosine
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KEdge

open Cert.KernelIdeal Cert.KernelIdeal.Gen
open Idealize.ShloMosaic Idealize.ShloMosaic.TcCoe Idealize.ShloMosaic.ValueIdx Idealize.SL.Sem

-- the TensorCore's buffer contents when a call is entered: a parameter, as in the frame
variable (V : (c : Dev nD) → (b : Ref sig .tc) → Buf (Elt Ideal) ((c : Thread nD τ).loc b))

/-- The two zero offsets of a tile's one access, as the constant function. -/
theorem zero_off : (![0, 0] : Fin 2 → Nat) = fun _ => 0 := funext fun a => by fin_cases a <;> rfl

/-! ## The first call (rows of 128) -/

/-- The first call's target rows, source rows, and its output array after the call. -/
abbrev xi0 (c : Dev nD) : FVec Ideal S851968x128 .f32 := V c main_v25
abbrev xj0 (c : Dev nD) : FVec Ideal S851968x128 .f32 := V c main_v18
abbrev out0 (c : Dev nD) : FVec Ideal S851968x128 .f32 := (dat0 (F := Ideal) V c).arrAt 2 cfg0.N

/-- One tile's body, read at row `p` and column `q` of the tile: the source element there times the weight of the
    tile's row `p` (the cosine test of the target row against the source row). -/
theorem weighted_row0 (x0 x1 : Vec Ideal S2048x128 .f32) (p : Fin 2048) (q : Fin 128) :
    k0_pay1 (F := Ideal) x0 x1 (ix2 p q)
      = x1 (ix2 p q) * Cert.Lib.cosMask (fun k => x0 (ix2 p k)) (fun k => x1 (ix2 p k)) := by
  unfold k0_pay1
  exact Cert.Lib.edge_rows_kernel _ _ _ _ _ _ _ x0 x1 p q

/-- Where the tiles sit: at point `t` each of the three arrays is read or written in its tile number `t` along the
    rows and in its only tile along the columns. -/
theorem tiles0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p`, column `q` of the target rows' tile `t` is the target array at row `2048 t + p`, column `q`. -/
theorem target_tile0 (c : Dev nD) (t : Fin cfg0.N) (p : Fin 2048) (q : Fin 128) (i : S851968x128.Idx)
    (h0 : (i 0).val = 2048 * t.val + p.val) (h1 : (i 1).val = q.val) :
    (iblk0 (F := Ideal) V c 0 t : Vec Ideal S2048x128 .f32) (ix2 p q) = xi0 V c i := by
  obtain ⟨e0, e1, -⟩ := tiles0 t
  show V c main_v25 (((cfg0.win 0).blk t).view.emb (ix2 p q)) = V c main_v25 i
  refine congrArg (V c main_v25) ?_
  funext a
  apply Fin.ext
  match a with
  | ⟨0, _⟩ => show win0_0.index t (0 : Fin 2) * 2048 + 1 * p.val = (i 0).val; rw [e0, h0]; omega
  | ⟨1, _⟩ => show win0_0.index t (1 : Fin 2) * 128 + 1 * q.val = (i 1).val; rw [e1, h1]; omega

/-- Row `p`, column `q` of the source rows' tile `t` is the source array at row `2048 t + p`, column `q`. -/
theorem source_tile0 (c : Dev nD) (t : Fin cfg0.N) (p : Fin 2048) (q : Fin 128) (i : S851968x128.Idx)
    (h0 : (i 0).val = 2048 * t.val + p.val) (h1 : (i 1).val = q.val) :
    (iblk0 (F := Ideal) V c 1 t : Vec Ideal S2048x128 .f32) (ix2 p q) = xj0 V c i := by
  obtain ⟨-, -, e0, e1, -⟩ := tiles0 t
  show V c main_v18 (((cfg0.win 1).blk t).view.emb (ix2 p q)) = V c main_v18 i
  refine congrArg (V c main_v18) ?_
  funext a
  apply Fin.ext
  match a with
  | ⟨0, _⟩ => show win0_1.index t (0 : Fin 2) * 2048 + 1 * p.val = (i 0).val; rw [e0, h0]; omega
  | ⟨1, _⟩ => show win0_1.index t (1 : Fin 2) * 128 + 1 * q.val = (i 1).val; rw [e1, h1]; omega

/-- The whole output as one function of the two arrays the call reads: at `i`, the source element at `i` times the
    weight of the row `i` lies in. -/
def weighted0 (c : Dev nD) : FVec Ideal S851968x128 .f32 := fun i =>
  xj0 V c i * Cert.Lib.cosMask (fun k => xi0 V c (ix2 (i 0 : Fin 851968) k)) (fun k => xj0 V c (ix2 (i 0 : Fin 851968) k))

/-- The body on the two tiles of point `t`, at row `p` and column `q`, is that function at row `2048 t + p`, column
    `q`: the tile's row `p` of either array is the array's row `2048 t + p`, so the weights agree. -/
theorem tile_weighted0 (c : Dev nD) (t : Fin cfg0.N) (p : Fin 2048) (q : Fin 128) (i : S851968x128.Idx)
    (h0 : (i 0).val = 2048 * t.val + p.val) (h1 : (i 1).val = q.val) :
    k0_pay1 (F := Ideal) (iblk0 (F := Ideal) V c 0 t) (iblk0 (F := Ideal) V c 1 t) (ix2 p q) = weighted0 V c i := by
  refine (weighted_row0 (iblk0 (F := Ideal) V c 0 t) (iblk0 (F := Ideal) V c 1 t) p q).trans ?_
  unfold weighted0
  rw [source_tile0 V c t p q i h0 h1]
  refine congrArg (fun w => xj0 V c i * w) ?_
  refine congrArg₂ Cert.Lib.cosMask ?_ ?_
  · funext k; exact target_tile0 V c t p k (ix2 (i 0 : Fin 851968) k) h0 rfl
  · funext k; exact source_tile0 V c t p k (ix2 (i 0 : Fin 851968) k) h0 rfl

/-- What point `t` writes to the output array is the restriction of that function to the output's tile `t`. -/
theorem written0 (c : Dev nD) (t : Fin cfg0.N) :
    (dat0 (F := Ideal) V c).flushed 2 t = ((cfg0.win 2).blk t).view.read (Elt Ideal) (weighted0 V c) := by
  show (cfg0.win 2).cut (grid0.coords t) ((dat0 (F := Ideal) V c).after 2 t) = _
  rw [after0_2]
  unfold out0_2
  rw [View.canon_unit_zero zero_off]
  simp only [View.ld_unit_zero (S := S2048x128) zero_off]
  obtain ⟨-, -, -, -, e0, e1⟩ := tiles0 t
  funext y
  obtain ⟨p, q, rfl⟩ : ∃ (p : Fin 2048) (q : Fin 128), y = ix2 p q := ⟨y 0, y 1, eq_ix2 y⟩
  refine tile_weighted0 V c t p q (((cfg0.win 2).blk t).view.emb (ix2 p q)) ?_ ?_
  · show win0_2.index t (0 : Fin 2) * 2048 + 1 * p.val = _; rw [e0]; omega
  · show win0_2.index t (1 : Fin 2) * 128 + 1 * q.val = _; rw [e1]; omega

/-- An index of the output array lies in tile `t` exactly when, on each axis, its coordinate is in the tile's range. -/
theorem in_tile0 (t : Fin cfg0.N) (i : S851968x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v26).slice (win0_2.rect t)).set ↔ _
  rw [View.set_slice_whole, Rect.mem_set_unit]
  exact Iff.rfl

/-- The tiles cover the output: row `r` lies in tile `r / 2048`, and 851968 = 416 · 2048 rows make 416 tiles. -/
theorem tiles_cover0 (i : S851968x128.Idx) :
    ∃ t : Fin cfg0.N, (cfg0.win 2).flush t = true ∧ i ∈ ((cfg0.win 2).blk t).view.set := by
  have hi0 : (i 0).val < 851968 := idx2_lt0 i
  have hi1 : (i 1).val < 128 := idx2_lt1 i
  have hN : grid0.N = 416 := N_0
  have ht : (i 0).val / 2048 < grid0.N := by rw [hN]; omega
  obtain ⟨-, -, -, -, e0, e1⟩ := tiles0 ⟨(i 0).val / 2048, ht⟩
  refine ⟨⟨(i 0).val / 2048, ht⟩, flush0_2 _, ?_⟩
  rw [in_tile0]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_2.index ⟨(i 0).val / 2048, ht⟩ (1 : Fin 2) * 128 ≤ (i 1).val
      ∧ (i 1).val < win0_2.index ⟨(i 0).val / 2048, ht⟩ (1 : Fin 2) * 128 + 128
    rw [e1]; omega

/-- After the first call, element `(e, k)` of its output is the source element times the weight of edge `e`. -/
theorem final0 (c : Dev nD) (e : Fin 851968) (k : Fin 128) :
    out0 V c (ix2 e k)
      = xj0 V c (ix2 e k) * Cert.Lib.cosMask (fun k => xi0 V c (ix2 e k)) (fun k => xj0 V c (ix2 e k)) :=
  congrFun ((dat0 (F := Ideal) V c).arrAt_eq_of_cover 2 (weighted0 V c) (fun t _ => written0 V c t) tiles_cover0)
    (ix2 e k)

/-! ## The second call (rows of 256) -/

/-- The second call's target rows, source rows, and its output array after the call. -/
abbrev xi2 (c : Dev nD) : FVec Ideal S851968x256 .f32 := V c main_v45
abbrev xj2 (c : Dev nD) : FVec Ideal S851968x256 .f32 := V c main_v38
abbrev out2 (c : Dev nD) : FVec Ideal S851968x256 .f32 := (dat2 (F := Ideal) V c).arrAt 2 cfg2.N

/-- One tile's body, read at row `p` and column `q` of the tile: the source element there times the weight of the
    tile's row `p` (the cosine test of the target row against the source row). -/
theorem weighted_row2 (x0 x1 : Vec Ideal S2048x256 .f32) (p : Fin 2048) (q : Fin 256) :
    k2_pay1 (F := Ideal) x0 x1 (ix2 p q)
      = x1 (ix2 p q) * Cert.Lib.cosMask (fun k => x0 (ix2 p k)) (fun k => x1 (ix2 p k)) := by
  unfold k2_pay1
  exact Cert.Lib.edge_rows_kernel _ _ _ _ _ _ _ x0 x1 p q

/-- Where the tiles sit: at point `t` each of the three arrays is read or written in its tile number `t` along the
    rows and in its only tile along the columns. -/
theorem tiles2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row `p`, column `q` of the target rows' tile `t` is the target array at row `2048 t + p`, column `q`. -/
theorem target_tile2 (c : Dev nD) (t : Fin cfg2.N) (p : Fin 2048) (q : Fin 256) (i : S851968x256.Idx)
    (h0 : (i 0).val = 2048 * t.val + p.val) (h1 : (i 1).val = q.val) :
    (iblk2 (F := Ideal) V c 0 t : Vec Ideal S2048x256 .f32) (ix2 p q) = xi2 V c i := by
  obtain ⟨e0, e1, -⟩ := tiles2 t
  show V c main_v45 (((cfg2.win 0).blk t).view.emb (ix2 p q)) = V c main_v45 i
  refine congrArg (V c main_v45) ?_
  funext a
  apply Fin.ext
  match a with
  | ⟨0, _⟩ => show win2_0.index t (0 : Fin 2) * 2048 + 1 * p.val = (i 0).val; rw [e0, h0]; omega
  | ⟨1, _⟩ => show win2_0.index t (1 : Fin 2) * 256 + 1 * q.val = (i 1).val; rw [e1, h1]; omega

/-- Row `p`, column `q` of the source rows' tile `t` is the source array at row `2048 t + p`, column `q`. -/
theorem source_tile2 (c : Dev nD) (t : Fin cfg2.N) (p : Fin 2048) (q : Fin 256) (i : S851968x256.Idx)
    (h0 : (i 0).val = 2048 * t.val + p.val) (h1 : (i 1).val = q.val) :
    (iblk2 (F := Ideal) V c 1 t : Vec Ideal S2048x256 .f32) (ix2 p q) = xj2 V c i := by
  obtain ⟨-, -, e0, e1, -⟩ := tiles2 t
  show V c main_v38 (((cfg2.win 1).blk t).view.emb (ix2 p q)) = V c main_v38 i
  refine congrArg (V c main_v38) ?_
  funext a
  apply Fin.ext
  match a with
  | ⟨0, _⟩ => show win2_1.index t (0 : Fin 2) * 2048 + 1 * p.val = (i 0).val; rw [e0, h0]; omega
  | ⟨1, _⟩ => show win2_1.index t (1 : Fin 2) * 256 + 1 * q.val = (i 1).val; rw [e1, h1]; omega

/-- The whole output as one function of the two arrays the call reads: at `i`, the source element at `i` times the
    weight of the row `i` lies in. -/
def weighted2 (c : Dev nD) : FVec Ideal S851968x256 .f32 := fun i =>
  xj2 V c i * Cert.Lib.cosMask (fun k => xi2 V c (ix2 (i 0 : Fin 851968) k)) (fun k => xj2 V c (ix2 (i 0 : Fin 851968) k))

/-- The body on the two tiles of point `t`, at row `p` and column `q`, is that function at row `2048 t + p`, column
    `q`: the tile's row `p` of either array is the array's row `2048 t + p`, so the weights agree. -/
theorem tile_weighted2 (c : Dev nD) (t : Fin cfg2.N) (p : Fin 2048) (q : Fin 256) (i : S851968x256.Idx)
    (h0 : (i 0).val = 2048 * t.val + p.val) (h1 : (i 1).val = q.val) :
    k2_pay1 (F := Ideal) (iblk2 (F := Ideal) V c 0 t) (iblk2 (F := Ideal) V c 1 t) (ix2 p q) = weighted2 V c i := by
  refine (weighted_row2 (iblk2 (F := Ideal) V c 0 t) (iblk2 (F := Ideal) V c 1 t) p q).trans ?_
  unfold weighted2
  rw [source_tile2 V c t p q i h0 h1]
  refine congrArg (fun w => xj2 V c i * w) ?_
  refine congrArg₂ Cert.Lib.cosMask ?_ ?_
  · funext k; exact target_tile2 V c t p k (ix2 (i 0 : Fin 851968) k) h0 rfl
  · funext k; exact source_tile2 V c t p k (ix2 (i 0 : Fin 851968) k) h0 rfl

/-- What point `t` writes to the output array is the restriction of that function to the output's tile `t`. -/
theorem written2 (c : Dev nD) (t : Fin cfg2.N) :
    (dat2 (F := Ideal) V c).flushed 2 t = ((cfg2.win 2).blk t).view.read (Elt Ideal) (weighted2 V c) := by
  show (cfg2.win 2).cut (grid2.coords t) ((dat2 (F := Ideal) V c).after 2 t) = _
  rw [after2_2]
  unfold out2_2
  rw [View.canon_unit_zero zero_off]
  simp only [View.ld_unit_zero (S := S2048x256) zero_off]
  obtain ⟨-, -, -, -, e0, e1⟩ := tiles2 t
  funext y
  obtain ⟨p, q, rfl⟩ : ∃ (p : Fin 2048) (q : Fin 256), y = ix2 p q := ⟨y 0, y 1, eq_ix2 y⟩
  refine tile_weighted2 V c t p q (((cfg2.win 2).blk t).view.emb (ix2 p q)) ?_ ?_
  · show win2_2.index t (0 : Fin 2) * 2048 + 1 * p.val = _; rw [e0]; omega
  · show win2_2.index t (1 : Fin 2) * 256 + 1 * q.val = _; rw [e1]; omega

/-- An index of the output array lies in tile `t` exactly when, on each axis, its coordinate is in the tile's range. -/
theorem in_tile2 (t : Fin cfg2.N) (i : S851968x256.Idx) :
    i ∈ ((cfg2.win 2).blk t).view.set ↔ ∀ a : Fin 2, win2_2.index t a * S2048x256.size a ≤ (i a).val
      ∧ (i a).val < win2_2.index t a * S2048x256.size a + S2048x256.size a := by
  show i ∈ ((View.whole main_v46).slice (win2_2.rect t)).set ↔ _
  rw [View.set_slice_whole, Rect.mem_set_unit]
  exact Iff.rfl

/-- The tiles cover the output: row `r` lies in tile `r / 2048`, and 851968 = 416 · 2048 rows make 416 tiles. -/
theorem tiles_cover2 (i : S851968x256.Idx) :
    ∃ t : Fin cfg2.N, (cfg2.win 2).flush t = true ∧ i ∈ ((cfg2.win 2).blk t).view.set := by
  have hi0 : (i 0).val < 851968 := idx2_lt0 i
  have hi1 : (i 1).val < 256 := idx2_lt1 i
  have hN : grid2.N = 416 := N_2
  have ht : (i 0).val / 2048 < grid2.N := by rw [hN]; omega
  obtain ⟨-, -, -, -, e0, e1⟩ := tiles2 ⟨(i 0).val / 2048, ht⟩
  refine ⟨⟨(i 0).val / 2048, ht⟩, flush2_2 _, ?_⟩
  rw [in_tile2]
  intro a
  match a with
  | ⟨0, _⟩ =>
    show win2_2.index ⟨(i 0).val / 2048, ht⟩ (0 : Fin 2) * 2048 ≤ (i 0).val
      ∧ (i 0).val < win2_2.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win2_2.index ⟨(i 0).val / 2048, ht⟩ (1 : Fin 2) * 256 ≤ (i 1).val
      ∧ (i 1).val < win2_2.index ⟨(i 0).val / 2048, ht⟩ (1 : Fin 2) * 256 + 256
    rw [e1]; omega

/-- After the second call, element `(e, k)` of its output is the source element times the weight of edge `e`. -/
theorem final2 (c : Dev nD) (e : Fin 851968) (k : Fin 256) :
    out2 V c (ix2 e k)
      = xj2 V c (ix2 e k) * Cert.Lib.cosMask (fun k => xi2 V c (ix2 e k)) (fun k => xj2 V c (ix2 e k)) :=
  congrFun ((dat2 (F := Ideal) V c).arrAt_eq_of_cover 2 (weighted2 V c) (fun t _ => written2 V c t) tiles_cover2)
    (ix2 e k)

end Cert.KernelIdeal.KEdge

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.KLin.lean ====
/-
  The two dense-layer calls of the kernel's program: what each leaves in its output array.

  Each call walks the `[50000, K]` matrix of aggregated rows in 10 tiles of 5000 rows, with the whole weight matrix
  `[M, K]` and the bias as a `[1, M]` row resident; tile `t` writes rows `5000 t … 5000 t + 4999` of the output: the
  tile's rows times the transposed weights on the matrix unit (operands narrowed to bf16, accumulated into zeros),
  plus the bias row, and for the first call the maximum with zero. Over the extended reals narrowing is the identity
  and the tile's product is the textbook sum, so the whole output is, element by element, the plain product of the
  aggregated matrix with the transposed weights plus the broadcast bias (and the maximum with zero): the tiles are
  restrictions of that one function and they cover the array.
-/
import proofs.«107164_j5385888989441_1_alg».proof.Proof.Gen.KernelIdeal.Frame
import proofs.«107164_j5385888989441_1_alg».proof.Proof.LibAffineRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KLin

open Cert.KernelIdeal Cert.KernelIdeal.Gen
open Idealize.ShloMosaic Idealize.ShloMosaic.TcCoe Idealize.ShloMosaic.ValueIdx Idealize.SL.Sem

/-! ## The dimension numbers of a plain matrix product -/

/-- Dimension numbers that contract the left operand's columns with the right operand's rows, keep the left rows and
    the right columns and batch nothing describe the plain product, whatever the sizes. -/
theorem plainDot_of_fields {R K M : ℕ} (d : DotDims ⟨2, ![R, K]⟩ ⟨2, ![K, M]⟩ ⟨2, ![R, M]⟩)
    (h1 : d.lhsContracting = [1]) (h2 : d.rhsContracting = [0]) (h3 : d.lhsNonContracting = [0])
    (h4 : d.rhsNonContracting = [1]) (h5 : d.lhsBatch = []) (h6 : d.rhsBatch = []) : Cert.Lib.PlainDot d := by
  have hr : d.contr.rank = 1 := by rw [d.rank_contr, h1]; rfl
  -- a coordinate of an index depends on the axis' number only
  have key : ∀ (i : (⟨2, ![R, M]⟩ : Shape).Idx) (p q : Nat) (hp : p < 2) (hq : q < 2), p = q →
      (i ⟨p, hp⟩).val = (i ⟨q, hq⟩).val := fun i p q hp hq h => by subst h; rfl
  refine ⟨hr, ?_, ?_, ?_, ?_, ?_⟩
  · have := d.size_contr 0 (by rw [h1]; exact Nat.one_pos)
    rw [this]
    simp [h1]
  · intro i q
    have hb : (0 : Fin 2) ∉ d.lhsBatch := by rw [h5]; exact List.not_mem_nil
    have hn : (0 : Fin 2) ∈ d.lhsNonContracting := by rw [h3]; exact List.mem_singleton.mpr rfl
    unfold DotDims.lhsIdx
    rw [dif_neg hb, dif_pos hn]
    simp only [Fin.val_cast]
    exact key i _ _ _ _ (by simp [h5, h3])
  · intro i q
    exact d.lhsIdx_val_of_single h1 i q
  · intro i q
    exact d.rhsIdx_val_of_single h2 i q
  · intro i q
    have hb : (1 : Fin 2) ∉ d.rhsBatch := by rw [h6]; exact List.not_mem_nil
    have hn : (1 : Fin 2) ∈ d.rhsNonContracting := by rw [h4]; exact List.mem_singleton.mpr rfl
    unfold DotDims.rhsIdx
    rw [dif_neg hb, dif_pos hn]
    simp only [Fin.val_cast]
    exact key i _ _ _ _ (by simp [h5, h3, h4])

/-- The two tile products of the dense calls are plain products. -/
theorem plainDot_tile1 : Cert.Lib.PlainDot dot_S5000x128_S128x256_S5000x256_1_0_0_1_n_n :=
  plainDot_of_fields _ rfl rfl rfl rfl rfl rfl
theorem plainDot_tile3 : Cert.Lib.PlainDot dot_S5000x256_S256x64_S5000x64_1_0_0_1_n_n :=
  plainDot_of_fields _ rfl rfl rfl rfl rfl rfl

/-! ## One tile of a dense layer, whatever the sizes -/

section Rows
variable {R K M N : ℕ}

/-- Narrowing then transposing is transposing then narrowing: both read the narrowed operand at the swapped index. -/
theorem transpose_truncf {s t : Shape} {φ ψ : FTy} (perm : List (Fin s.rank)) (x : FVec Ideal s φ) (h : ψ.bits < φ.bits)
    (hT : s.Transposes perm t) : transpose t perm (truncf ψ x h) hT = truncf ψ (transpose t perm x hT) h := rfl

/-- ONE TILE, ROW BY ROW, as the kernel spells it: the tile's rows pass an identity reshape before narrowing, the
    weights are narrowed and then transposed, the bias row passes two identity reshapes. Where row `r` of the tile is
    row `n r` of `X`, the tile's result at `(r, q)` is the whole `X · wᵀ + bias` at `(n r, q)`. -/
theorem dense_rows
    {dB : DotDims ⟨2, ![R, K]⟩ ⟨2, ![K, M]⟩ ⟨2, ![R, M]⟩} (hB : Cert.Lib.PlainDot dB)
    {dW : DotDims ⟨2, ![N, K]⟩ ⟨2, ![K, M]⟩ ⟨2, ![N, M]⟩} (hW : Cert.Lib.PlainDot dW)
    (xb : FVec Ideal ⟨2, ![R, K]⟩ .f32) (X : FVec Ideal ⟨2, ![N, K]⟩ .f32) (w : FVec Ideal ⟨2, ![M, K]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsx : (⟨2, ![R, K]⟩ : Shape).ShapeCasts ⟨2, ![R, K]⟩)
    (hT : (⟨2, ![M, K]⟩ : Shape).Transposes [1, 0] ⟨2, ![K, M]⟩)
    (hT' : (⟨2, ![M, K]⟩ : Shape).Transposes [1, 0] ⟨2, ![K, M]⟩)
    (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 (shapeCast ⟨2, ![R, K]⟩ xb hsx) ht)
          (transpose ⟨2, ![K, M]⟩ [1, 0] (truncf .bf16 w ht) hT) (constant ⟨2, ![R, M]⟩ .f32 0x00000000#32))
        (broadcastTo ⟨2, ![R, M]⟩ (shapeCast ⟨2, ![1, M]⟩ (shapeCast ⟨2, ![1, M]⟩ b2 hsc) hsc) hbc) (ix2 r q)
      = addf (Host.dotGeneral dW none X (transpose ⟨2, ![K, M]⟩ [1, 0] w hT'))
          (broadcastInDim ⟨2, ![N, M]⟩ ![0, 1] h2 (broadcastInDim ⟨2, ![1, M]⟩ ![1] h1 b)) (ix2 (n r) q) := by
  rw [shapeCast_self xb hsx, shapeCast_self b2 hsc, transpose_truncf]
  exact Cert.Lib.affine_rows hB hW xb X (transpose ⟨2, ![K, M]⟩ [1, 0] w hT) b2 b n hx hb ht hsc hbc h1 h2 r q

/-- The maximum with a zero splat and the maximum with a broadcast zero constant read the same value where the other
    operands do. -/
theorem relu_rows (a : FVec Ideal ⟨2, ![R, M]⟩ .f32) (A : FVec Ideal ⟨2, ![N, M]⟩ .f32)
    (h0 : (⟨0, ![]⟩ : Shape).BroadcastsInDim ⟨2, ![N, M]⟩ (![] : Fin 0 → Fin 2))
    (i : (⟨2, ![R, M]⟩ : Shape).Idx) (j : (⟨2, ![N, M]⟩ : Shape).Idx) (h : a i = A j) :
    maximumf a (broadcast ⟨2, ![R, M]⟩ (Scalar.ofBits (F := Ideal) .f32 0x00000000#32)) i
      = maximumf A (broadcastInDim ⟨2, ![N, M]⟩ ![] h0 (constant (F := Ideal) ⟨0, ![]⟩ .f32 0x00000000#32)) j := by
  rw [maximumf_apply, maximumf_apply, h]
  rfl

end Rows

-- the TensorCore's buffer contents when a call is entered: a parameter, as in the frame
variable (V : (c : Dev nD) → (b : Ref sig .tc) → Buf (Elt Ideal) ((c : Thread nD τ).loc b))

/-! ## The first dense call -/

/-- The first dense call's aggregated rows, weights, bias row, and its output array after the call. -/
abbrev agg1 (c : Dev nD) : FVec Ideal S50000x128 .f32 := V c main_v29
abbrev w1 (c : Dev nD) : FVec Ideal S256x128 .f32 := V c main_arg2
abbrev brow1 (c : Dev nD) : FVec Ideal S1x256 .f32 := V c main_v30
abbrev out1 (c : Dev nD) : FVec Ideal S50000x256 .f32 := (dat1 (F := Ideal) V c).arrAt 3 cfg1.N

/-- The tile's arithmetic at `(r, q)`: where row `r` of the tile is row `n r` of `X`, the weights' block is `W` and the
    bias block's row is `b`, it is the maximum with zero of `X · Wᵀ + b` at `(n r, q)`. -/
theorem pay1_apply (dW : DotDims S50000x128 S128x256 S50000x256) (hW : Cert.Lib.PlainDot dW)
    (hT : S256x128.Transposes [1, 0] S128x256)
    (h1 : S256.BroadcastsInDim S1x256 ![1]) (h2 : S1x256.BroadcastsInDim S50000x256 ![0, 1])
    (h0 : S_.BroadcastsInDim S50000x256 ![])
    (x0 : Vec Ideal S5000x128 .f32) (x1 : Vec Ideal S256x128 .f32) (x2 : Vec Ideal S1x256 .f32)
    (X : FVec Ideal S50000x128 .f32) (W : FVec Ideal S256x128 .f32) (b : FVec Ideal S256 .f32) (n : Fin 5000 → Fin 50000)
    (hx : ∀ r k, x0 (ix2 r k) = X (ix2 (n r) k)) (hw : x1 = W)
    (hb : ∀ q : Fin 256, x2 (ix2 (0 : Fin 1) q) = b (ix1 q)) (r : Fin 5000) (q : Fin 256) :
    k1_pay1 x0 x1 x2 (ix2 r q)
      = maximumf (addf (Host.dotGeneral dW none X (transpose S128x256 [1, 0] W hT))
            (broadcastInDim S50000x256 ![0, 1] h2 (broadcastInDim S1x256 ![1] h1 b)))
          (broadcastInDim S50000x256 ![] h0 (constant (F := Ideal) S_ .f32 0x00000000#32)) (ix2 (n r) q) := by
  subst hw
  unfold k1_pay1
  exact relu_rows _ _ h0 _ _
    (dense_rows plainDot_tile1 hW x0 X x1 x2 b n hx hb bitsLt_bf16_f32 shapeCasts_S5000x128_S5000x128
      transposes_S256x128_p1_0_S128x256 hT shapeCasts_S1x256_S1x256 broadcasts_S1x256_S5000x256 h1 h2 r q)

/-- Both offsets of a whole-buffer access are zero. -/
theorem hz : (![0, 0] : Fin 2 → Nat) = fun _ => 0 := funext fun a => by fin_cases a <;> rfl

/-- The printed index maps over the ten tiles: the row-tiled windows' block at tile `t` is block `(t, 0)`, the
    resident windows' block is block `(0, 0)` at every tile. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- Row `p` of tile `t` is row `5000 t + p` of the array. -/
def row1 (t : Fin cfg1.N) (p : Fin 5000) : Fin 50000 :=
  ⟨t.val * 5000 + p.val, by have := (idx_facts1 t).2.2.2.2.2.2.2.2; have := p.isLt; omega⟩

/-- The whole output of the first dense call, as one function of the arrays the call finds. -/
abbrev G1 (c : Dev nD) (dW : DotDims S50000x128 S128x256 S50000x256) (hT : S256x128.Transposes [1, 0] S128x256)
    (h1 : S256.BroadcastsInDim S1x256 ![1]) (h2 : S1x256.BroadcastsInDim S50000x256 ![0, 1])
    (h0 : S_.BroadcastsInDim S50000x256 ![]) (b : FVec Ideal S256 .f32) : FVec Ideal S50000x256 .f32 :=
  maximumf (addf (Host.dotGeneral dW none (agg1 V c) (transpose S128x256 [1, 0] (w1 V c) hT))
      (broadcastInDim S50000x256 ![0, 1] h2 (broadcastInDim S1x256 ![1] h1 b)))
    (broadcastInDim S50000x256 ![] h0 (constant (F := Ideal) S_ .f32 0x00000000#32))

/-- Tile `t`'s block of the aggregated rows holds rows `5000 t …` of the array. -/
theorem rows1_read (c : Dev nD) (t : Fin cfg1.N) (p : Fin 5000) (k : Fin 128) :
    iblk1 V c 0 t (ix2 p k) = agg1 V c (ix2 (row1 t p) k) := by
  obtain ⟨e0, e1, -⟩ := idx_facts1 t
  show V c main_v29 (((cfg1.win 0).blk t).view.emb (ix2 p k)) = V c main_v29 (ix2 (row1 t p) k)
  refine congrArg (V c main_v29) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The weights' block is the whole weight matrix at every tile. -/
theorem weights1_read (c : Dev nD) (t : Fin cfg1.N) : iblk1 V c 1 t = w1 V c := by
  obtain ⟨-, -, e0, e1, -⟩ := idx_facts1 t
  funext y
  show V c main_arg2 (((cfg1.win 1).blk t).view.emb y) = V c main_arg2 y
  refine congrArg (V c main_arg2) (funext fun a => Fin.ext ?_)
  match a with
  | ⟨0, _⟩ => show win1_1.index t (0 : Fin 2) * 256 + 1 * (y 0).val = (y 0).val; rw [e0]; omega
  | ⟨1, _⟩ => show win1_1.index t (1 : Fin 2) * 128 + 1 * (y 1).val = (y 1).val; rw [e1]; omega

/-- The bias block is the whole bias row at every tile. -/
theorem bias1_read (c : Dev nD) (t : Fin cfg1.N) : iblk1 V c 2 t = brow1 V c := by
  obtain ⟨-, -, -, -, e0, e1, -⟩ := idx_facts1 t
  funext y
  show V c main_v30 (((cfg1.win 2).blk t).view.emb y) = V c main_v30 y
  refine congrArg (V c main_v30) (funext fun a => Fin.ext ?_)
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- WHAT TILE `t` WRITES BACK is block `t` of that one function. -/
theorem flushed1_eq (c : Dev nD) (dW : DotDims S50000x128 S128x256 S50000x256) (hW : Cert.Lib.PlainDot dW)
    (hT : S256x128.Transposes [1, 0] S128x256)
    (h1 : S256.BroadcastsInDim S1x256 ![1]) (h2 : S1x256.BroadcastsInDim S50000x256 ![0, 1])
    (h0 : S_.BroadcastsInDim S50000x256 ![])
    (b : FVec Ideal S256 .f32) (hb : ∀ q : Fin 256, brow1 V c (ix2 (0 : Fin 1) q) = b (ix1 q)) (t : Fin cfg1.N) :
    (dat1 (F := Ideal) V c).flushed 3 t
      = ((cfg1.win 3).blk t).view.read (Elt Ideal) (G1 V c dW hT h1 h2 h0 b) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S256x128) hz,
    View.ld_unit_zero (S := S1x256) hz]
  obtain ⟨-, -, -, -, -, -, e0, e1, -⟩ := idx_facts1 t
  funext y
  obtain ⟨p, q, rfl⟩ : ∃ p q, y = ix2 p q := ⟨y 0, y 1, eq_ix2 y⟩
  refine (pay1_apply dW hW hT h1 h2 h0 (iblk1 V c 0 t) (iblk1 V c 1 t) (iblk1 V c 2 t) (agg1 V c) (w1 V c) b (row1 t)
    (rows1_read V c t) (weights1_read V c t)
    (fun q => (congrFun (bias1_read V c t) (ix2 (0 : Fin 1) q)).trans (hb q)) p q).trans ?_
  show G1 V c dW hT h1 h2 h0 b (ix2 (row1 t p) q) = G1 V c dW hT h1 h2 h0 b (((cfg1.win 3).blk t).view.emb (ix2 p q))
  refine congrArg (G1 V c dW hT h1 h2 h0 b) (funext fun a => Fin.ext ?_)
  match a with
  | ⟨0, _⟩ => show t.val * 5000 + p.val = win1_3.index t (0 : Fin 2) * 5000 + 1 * p.val; rw [e0]; omega
  | ⟨1, _⟩ => show q.val = win1_3.index t (1 : Fin 2) * 256 + 1 * q.val; rw [e1]; omega

/-- An index of the output is in tile `t`'s block iff each coordinate is in the block's range on its axis. -/
theorem mem_blk1 (t : Fin cfg1.N) (i : S50000x256.Idx) :
    i ∈ ((cfg1.win 3).blk t).view.set
      ↔ ∀ a : Fin 2, win1_3.index t a * S5000x256.size a ≤ (i a).val
          ∧ (i a).val < win1_3.index t a * S5000x256.size a + S5000x256.size a := by
  show i ∈ ((View.whole main_v31).slice (win1_3.rect t)).set ↔ _
  rw [View.set_slice_whole, Rect.mem_set_unit]
  exact Iff.rfl

/-- Every index of the output is in the block of the tile its row falls in. -/
theorem cover1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have ht : (i 0).val / 5000 < cfg1.N := by show _ < 10; omega
  obtain ⟨-, -, -, -, -, -, e0, e1, -⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 256 ≤ (i 1).val
      ∧ (i 1).val < win1_3.index ⟨(i 0).val / 5000, ht⟩ (1 : Fin 2) * 256 + 256
    rw [e1]; omega

/-- After the first dense call its output is, at `(n, q)`, the maximum with zero of the plain product of the aggregated
    matrix with the transposed weights plus the bias vector `b` broadcast over the rows, `b` any vector the bias row
    holds. The plain product's dimension numbers and the side conditions of the plain operations are parameters. -/
theorem final1 (c : Dev nD) (dW : DotDims S50000x128 S128x256 S50000x256) (hW : Cert.Lib.PlainDot dW)
    (hT : S256x128.Transposes [1, 0] S128x256)
    (h1 : S256.BroadcastsInDim S1x256 ![1]) (h2 : S1x256.BroadcastsInDim S50000x256 ![0, 1])
    (h0 : S_.BroadcastsInDim S50000x256 ![])
    (b : FVec Ideal S256 .f32) (hb : ∀ q : Fin 256, brow1 V c (ix2 (0 : Fin 1) q) = b (ix1 q))
    (n : Fin 50000) (q : Fin 256) :
    out1 V c (ix2 n q)
      = maximumf (addf (Host.dotGeneral dW none (agg1 V c) (transpose S128x256 [1, 0] (w1 V c) hT))
            (broadcastInDim S50000x256 ![0, 1] h2 (broadcastInDim S1x256 ![1] h1 b)))
          (broadcastInDim S50000x256 ![] h0 (constant (F := Ideal) S_ .f32 0x00000000#32)) (ix2 n q) :=
  congrFun ((dat1 (F := Ideal) V c).arrAt_eq_of_cover 3 (G1 V c dW hT h1 h2 h0 b)
    (fun t _ => flushed1_eq V c dW hW hT h1 h2 h0 b hb t) cover1) (ix2 n q)

/-! ## The second dense call -/

/-- The second dense call's aggregated rows, weights, bias row, and its output array after the call. -/
abbrev agg3 (c : Dev nD) : FVec Ideal S50000x256 .f32 := V c main_v49
abbrev w3 (c : Dev nD) : FVec Ideal S64x256 .f32 := V c main_arg4
abbrev brow3 (c : Dev nD) : FVec Ideal S1x64 .f32 := V c main_v50
abbrev out3 (c : Dev nD) : FVec Ideal S50000x64 .f32 := (dat3 (F := Ideal) V c).arrAt 3 cfg3.N

/-- The tile's arithmetic at `(r, q)`: where row `r` of the tile is row `n r` of `X`, the weights' block is `W` and the
    bias block's row is `b`, it is `X · Wᵀ + b` at `(n r, q)`. -/
theorem pay3_apply (dW : DotDims S50000x256 S256x64 S50000x64) (hW : Cert.Lib.PlainDot dW)
    (hT : S64x256.Transposes [1, 0] S256x64)
    (h1 : S64.BroadcastsInDim S1x64 ![1]) (h2 : S1x64.BroadcastsInDim S50000x64 ![0, 1])
    (x0 : Vec Ideal S5000x256 .f32) (x1 : Vec Ideal S64x256 .f32) (x2 : Vec Ideal S1x64 .f32)
    (X : FVec Ideal S50000x256 .f32) (W : FVec Ideal S64x256 .f32) (b : FVec Ideal S64 .f32) (n : Fin 5000 → Fin 50000)
    (hx : ∀ r k, x0 (ix2 r k) = X (ix2 (n r) k)) (hw : x1 = W)
    (hb : ∀ q : Fin 64, x2 (ix2 (0 : Fin 1) q) = b (ix1 q)) (r : Fin 5000) (q : Fin 64) :
    k3_pay1 x0 x1 x2 (ix2 r q)
      = addf (Host.dotGeneral dW none X (transpose S256x64 [1, 0] W hT))
          (broadcastInDim S50000x64 ![0, 1] h2 (broadcastInDim S1x64 ![1] h1 b)) (ix2 (n r) q) := by
  subst hw
  unfold k3_pay1
  exact dense_rows plainDot_tile3 hW x0 X x1 x2 b n hx hb bitsLt_bf16_f32 shapeCasts_S5000x256_S5000x256
    transposes_S64x256_p1_0_S256x64 hT shapeCasts_S1x64_S1x64 broadcasts_S1x64_S5000x64 h1 h2 r q

/-- The printed index maps over the ten tiles: the row-tiled windows' block at tile `t` is block `(t, 0)`, the
    resident windows' block is block `(0, 0)` at every tile. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 10 :=
  (by decide +kernel : ∀ t : Fin grid3.N, _)

/-- Row `p` of tile `t` is row `5000 t + p` of the array. -/
def row3 (t : Fin cfg3.N) (p : Fin 5000) : Fin 50000 :=
  ⟨t.val * 5000 + p.val, by have := (idx_facts3 t).2.2.2.2.2.2.2.2; have := p.isLt; omega⟩

/-- The whole output of the second dense call, as one function of the arrays the call finds. -/
abbrev G3 (c : Dev nD) (dW : DotDims S50000x256 S256x64 S50000x64) (hT : S64x256.Transposes [1, 0] S256x64)
    (h1 : S64.BroadcastsInDim S1x64 ![1]) (h2 : S1x64.BroadcastsInDim S50000x64 ![0, 1])
    (b : FVec Ideal S64 .f32) : FVec Ideal S50000x64 .f32 :=
  addf (Host.dotGeneral dW none (agg3 V c) (transpose S256x64 [1, 0] (w3 V c) hT))
    (broadcastInDim S50000x64 ![0, 1] h2 (broadcastInDim S1x64 ![1] h1 b))

/-- Tile `t`'s block of the aggregated rows holds rows `5000 t …` of the array. -/
theorem rows3_read (c : Dev nD) (t : Fin cfg3.N) (p : Fin 5000) (k : Fin 256) :
    iblk3 V c 0 t (ix2 p k) = agg3 V c (ix2 (row3 t p) k) := by
  obtain ⟨e0, e1, -⟩ := idx_facts3 t
  show V c main_v49 (((cfg3.win 0).blk t).view.emb (ix2 p k)) = V c main_v49 (ix2 (row3 t p) k)
  refine congrArg (V c main_v49) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 256 + 1 * k.val = k.val; rw [e1]; omega

/-- The weights' block is the whole weight matrix at every tile. -/
theorem weights3_read (c : Dev nD) (t : Fin cfg3.N) : iblk3 V c 1 t = w3 V c := by
  obtain ⟨-, -, e0, e1, -⟩ := idx_facts3 t
  funext y
  show V c main_arg4 (((cfg3.win 1).blk t).view.emb y) = V c main_arg4 y
  refine congrArg (V c main_arg4) (funext fun a => Fin.ext ?_)
  match a with
  | ⟨0, _⟩ => show win3_1.index t (0 : Fin 2) * 64 + 1 * (y 0).val = (y 0).val; rw [e0]; omega
  | ⟨1, _⟩ => show win3_1.index t (1 : Fin 2) * 256 + 1 * (y 1).val = (y 1).val; rw [e1]; omega

/-- The bias block is the whole bias row at every tile. -/
theorem bias3_read (c : Dev nD) (t : Fin cfg3.N) : iblk3 V c 2 t = brow3 V c := by
  obtain ⟨-, -, -, -, e0, e1, -⟩ := idx_facts3 t
  funext y
  show V c main_v50 (((cfg3.win 2).blk t).view.emb y) = V c main_v50 y
  refine congrArg (V c main_v50) (funext fun a => Fin.ext ?_)
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega

/-- WHAT TILE `t` WRITES BACK is block `t` of that one function. -/
theorem flushed3_eq (c : Dev nD) (dW : DotDims S50000x256 S256x64 S50000x64) (hW : Cert.Lib.PlainDot dW)
    (hT : S64x256.Transposes [1, 0] S256x64)
    (h1 : S64.BroadcastsInDim S1x64 ![1]) (h2 : S1x64.BroadcastsInDim S50000x64 ![0, 1])
    (b : FVec Ideal S64 .f32) (hb : ∀ q : Fin 64, brow3 V c (ix2 (0 : Fin 1) q) = b (ix1 q)) (t : Fin cfg3.N) :
    (dat3 (F := Ideal) V c).flushed 3 t
      = ((cfg3.win 3).blk t).view.read (Elt Ideal) (G3 V c dW hT h1 h2 b) := by
  show (cfg3.win 3).cut (grid3.coords t) ((dat3 (F := Ideal) V c).after 3 t) = _
  rw [after3_3]
  unfold out3_3
  rw [View.canon_unit_zero hz]
  simp only [View.ld_unit_zero (S := S5000x256) hz, View.ld_unit_zero (S := S64x256) hz,
    View.ld_unit_zero (S := S1x64) hz]
  obtain ⟨-, -, -, -, -, -, e0, e1, -⟩ := idx_facts3 t
  funext y
  obtain ⟨p, q, rfl⟩ : ∃ p q, y = ix2 p q := ⟨y 0, y 1, eq_ix2 y⟩
  refine (pay3_apply dW hW hT h1 h2 (iblk3 V c 0 t) (iblk3 V c 1 t) (iblk3 V c 2 t) (agg3 V c) (w3 V c) b (row3 t)
    (rows3_read V c t) (weights3_read V c t)
    (fun q => (congrFun (bias3_read V c t) (ix2 (0 : Fin 1) q)).trans (hb q)) p q).trans ?_
  show G3 V c dW hT h1 h2 b (ix2 (row3 t p) q) = G3 V c dW hT h1 h2 b (((cfg3.win 3).blk t).view.emb (ix2 p q))
  refine congrArg (G3 V c dW hT h1 h2 b) (funext fun a => Fin.ext ?_)
  match a with
  | ⟨0, _⟩ => show t.val * 5000 + p.val = win3_3.index t (0 : Fin 2) * 5000 + 1 * p.val; rw [e0]; omega
  | ⟨1, _⟩ => show q.val = win3_3.index t (1 : Fin 2) * 64 + 1 * q.val; rw [e1]; omega

/-- An index of the output is in tile `t`'s block iff each coordinate is in the block's range on its axis. -/
theorem mem_blk3 (t : Fin cfg3.N) (i : S50000x64.Idx) :
    i ∈ ((cfg3.win 3).blk t).view.set
      ↔ ∀ a : Fin 2, win3_3.index t a * S5000x64.size a ≤ (i a).val
          ∧ (i a).val < win3_3.index t a * S5000x64.size a + S5000x64.size a := by
  show i ∈ ((View.whole main_v51).slice (win3_3.rect t)).set ↔ _
  rw [View.set_slice_whole, Rect.mem_set_unit]
  exact Iff.rfl

/-- Every index of the output is in the block of the tile its row falls in. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have ht : (i 0).val / 5000 < cfg3.N := by show _ < 10; omega
  obtain ⟨-, -, -, -, -, -, e0, e1, -⟩ := idx_facts3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ (1 : Fin 2) * 64 ≤ (i 1).val
      ∧ (i 1).val < win3_3.index ⟨(i 0).val / 5000, ht⟩ (1 : Fin 2) * 64 + 64
    rw [e1]; omega

/-- After the second dense call its output is, at `(n, q)`, the plain product of the aggregated matrix with the
    transposed weights plus the broadcast bias vector. -/
theorem final3 (c : Dev nD) (dW : DotDims S50000x256 S256x64 S50000x64) (hW : Cert.Lib.PlainDot dW)
    (hT : S64x256.Transposes [1, 0] S256x64)
    (h1 : S64.BroadcastsInDim S1x64 ![1]) (h2 : S1x64.BroadcastsInDim S50000x64 ![0, 1])
    (b : FVec Ideal S64 .f32) (hb : ∀ q : Fin 64, brow3 V c (ix2 (0 : Fin 1) q) = b (ix1 q))
    (n : Fin 50000) (q : Fin 64) :
    out3 V c (ix2 n q)
      = addf (Host.dotGeneral dW none (agg3 V c) (transpose S256x64 [1, 0] (w3 V c) hT))
          (broadcastInDim S50000x64 ![0, 1] h2 (broadcastInDim S1x64 ![1] h1 b)) (ix2 n q) :=
  congrFun ((dat3 (F := Ideal) V c).arrAt_eq_of_cover 3 (G3 V c dW hT h1 h2 b)
    (fun t _ => flushed3_eq V c dW hW hT h1 h2 b hb t) cover3) (ix2 n q)

end Cert.KernelIdeal.KLin

end
-- ==== Proof.KChain.lean ====
/-
  The kernel program's host operations between its four calls, read back.

  The program builds three index lists from the edge list (sources and targets with the self loops appended, then
  padded to a whole number of tiles: the gathers' lists padded with row 0, the scatters' list padded with the row
  number 50000, which is outside the table), gathers rows of the current node table into the two operands of an
  edge-weighting call, scatter-adds the call's output rows into a zero table, feeds that table with the layer's
  weights and its bias (reshaped to a row) to a dense call, twice over, and ends with a row-wise log-softmax. Here each
  call's input arrays are named as host operations of the launch arguments and of the previous call's output array,
  and the program's result as the log-softmax of the last call's output array. A buffer that later stretches read
  (the index lists) passes unchanged through the calls and stretches that do not write it.
-/
import proofs.«107164_j5385888989441_1_alg».proof.Proof.Gen.KernelIdeal.Frame
import Idealize.ShloMosaic.Lib.StableHlo.Run

noncomputable section

namespace Cert.KernelIdeal.KChain

open Cert.KernelIdeal Cert.KernelIdeal.Gen
open Idealize.ShloMosaic Idealize.ShloMosaic.TcCoe Idealize.SL.Sem

variable {F : FTy → Type} [FloatOps F]

/-! ## The index lists, as functions of the edge list -/

/-- The edges' sources (row 0 of the edge list) followed by the 50000 self loops. -/
def srcIdx (x1 : IVec S2x800000 32) : IVec S850000 32 :=
  concatenate S850000 0 [⟨S800000, shapeCast S800000 (extractStridedSlice S1x800000 ![0, 0] x1 slices_S2x800000_S1x800000_0_0) shapeCasts_S1x800000_S800000⟩,
    ⟨S50000, iotaInDim S50000 32 0⟩] concatenates_S800000_S50000_S850000_d0
/-- The edges' targets (row 1 of the edge list) followed by the 50000 self loops. -/
def dstIdx (x1 : IVec S2x800000 32) : IVec S850000 32 :=
  concatenate S850000 0 [⟨S800000, shapeCast S800000 (extractStridedSlice S1x800000 ![1, 0] x1 slices_S2x800000_S1x800000_1_0) shapeCasts_S1x800000_S800000⟩,
    ⟨S50000, iotaInDim S50000 32 0⟩] concatenates_S800000_S50000_S850000_d0
/-- A list of 850000 row numbers padded to 851968 entries with the word `w`. -/
def padded (v : IVec S850000 32) (w : BitVec 32) : IVec S851968 32 :=
  concatenate S851968 0 [⟨S850000, v⟩, ⟨S1968, broadcastInDim S1968 ![] bcast_S_S1968 (constantI S_ 32 w)⟩] concatenates_S850000_S1968_S851968_d0
/-- A gather's start indices: a negative row number counted from the end (plus 50000), as a column. -/
def wrap (v : IVec S851968 32) : IVec S851968x1 32 :=
  broadcastInDim S851968x1 ![0] bcast_S851968_S851968x1_0
    (select (cmpi .slt v (broadcastInDim S851968 ![] bcast_S_S851968 (constantI S_ 32 0#32)))
      (addi v (broadcastInDim S851968 ![] bcast_S_S851968 (constantI S_ 32 50000#32))) v)
/-- A scatter's indices: the list as a column. -/
def col (v : IVec S851968 32) : IVec S851968x1 32 := broadcastInDim S851968x1 ![0] bcast_S851968_S851968x1_0 v

/-! ## The closing row-wise log-softmax -/

/-- A `[50000, 64]` table less its row maxima. -/
def shifted (y : FVec F S50000x64 .f32) : FVec F S50000x64 .f32 :=
  subf y (broadcastInDim S50000x64 ![0, 1] bcast_S50000x1_S50000x64_0_1 (broadcastInDim S50000x1 ![0] bcast_S50000_S50000x1_0
    (maximumf (broadcastInDim S50000 ![] bcast_S_S50000 (constant S_ .f32 0xFF800000#32))
      (Host.reduce FloatOps.maximumf y (constant S_ .f32 0xFF800000#32) reducesTo_S50000x64_S50000_d1 h_S_))))
/-- The row-wise log-softmax: the shifted table less the logarithm of its rows' sums of exponentials. -/
def logSoftmax (y : FVec F S50000x64 .f32) : FVec F S50000x64 .f32 :=
  subf (shifted y) (broadcastInDim S50000x64 ![0, 1] bcast_S50000x1_S50000x64_0_1
    (Host.log (broadcastInDim S50000x1 ![0] bcast_S50000_S50000x1_0
      (Host.reduceAdd (Host.exp (shifted y)) (constant S_ .f32 0x00000000#32) reducesTo_S50000x64_S50000_d1 h_S_))))

variable (m : (ℓ : Loc nD τ sig) → Buf (Elt F) ℓ) (ρ : Dev nD → PrngReg)

/-- The edge list as launched. -/
abbrev edges (c : Dev nD) : IVec S2x800000 32 := (m ((c.tc : Thread nD τ).loc main_arg1))

/-! ## A buffer a stretch does not write, and the index lists carried forward -/

/-- A buffer that no operation of a stretch writes is left by the stretch as it was. -/
local macro "unwritten_by " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-- After the first stretch the sources' list is the sources padded with row 0 … -/
theorem W1_v9 (c : Dev nD) : W1 m ρ c (Proc.devRef .tc main_v9) = padded (srcIdx (edges m c)) 0#32 := by
  show StableHlo.after hostOps0 (W0 m ρ c) (Proc.devRef .tc main_v9) = _
  after_results_simp
  rfl
/-- … the targets' list for the gathers the targets padded with row 0 … -/
theorem W1_v10 (c : Dev nD) : W1 m ρ c (Proc.devRef .tc main_v10) = padded (dstIdx (edges m c)) 0#32 := by
  show StableHlo.after hostOps0 (W0 m ρ c) (Proc.devRef .tc main_v10) = _
  after_results_simp
  rfl
/-- … and the targets' list for the scatters the targets padded with the row number 50000. -/
theorem W1_v11 (c : Dev nD) : W1 m ρ c (Proc.devRef .tc main_v11) = padded (dstIdx (edges m c)) 50000#32 := by
  show StableHlo.after hostOps0 (W0 m ρ c) (Proc.devRef .tc main_v11) = _
  after_results_simp
  rfl

/-- The first call owns none of the three lists. -/
theorem W2_v9 (c : Dev nD) : W2 m ρ c (Proc.devRef .tc main_v9) = padded (srcIdx (edges m c)) 0#32 :=
  (W2_of_ne m ρ c main_v9 (by decide)).trans (W1_v9 m ρ c)
theorem W2_v10 (c : Dev nD) : W2 m ρ c (Proc.devRef .tc main_v10) = padded (dstIdx (edges m c)) 0#32 :=
  (W2_of_ne m ρ c main_v10 (by decide)).trans (W1_v10 m ρ c)
theorem W2_v11 (c : Dev nD) : W2 m ρ c (Proc.devRef .tc main_v11) = padded (dstIdx (edges m c)) 50000#32 :=
  (W2_of_ne m ρ c main_v11 (by decide)).trans (W1_v11 m ρ c)

/-- The second stretch writes none of them … -/
theorem W3_v9 (c : Dev nD) : W3 m ρ c (Proc.devRef .tc main_v9) = padded (srcIdx (edges m c)) 0#32 :=
  Eq.trans (by unwritten_by hostOps1) (W2_v9 m ρ c)
theorem W3_v10 (c : Dev nD) : W3 m ρ c (Proc.devRef .tc main_v10) = padded (dstIdx (edges m c)) 0#32 :=
  Eq.trans (by unwritten_by hostOps1) (W2_v10 m ρ c)
theorem W3_v11 (c : Dev nD) : W3 m ρ c (Proc.devRef .tc main_v11) = padded (dstIdx (edges m c)) 50000#32 :=
  Eq.trans (by unwritten_by hostOps1) (W2_v11 m ρ c)

/-- … the second call owns none … -/
theorem W4_v9 (c : Dev nD) : W4 m ρ c (Proc.devRef .tc main_v9) = padded (srcIdx (edges m c)) 0#32 :=
  (W4_of_ne m ρ c main_v9 (by decide)).trans (W3_v9 m ρ c)
theorem W4_v10 (c : Dev nD) : W4 m ρ c (Proc.devRef .tc main_v10) = padded (dstIdx (edges m c)) 0#32 :=
  (W4_of_ne m ρ c main_v10 (by decide)).trans (W3_v10 m ρ c)
theorem W4_v11 (c : Dev nD) : W4 m ρ c (Proc.devRef .tc main_v11) = padded (dstIdx (edges m c)) 50000#32 :=
  (W4_of_ne m ρ c main_v11 (by decide)).trans (W3_v11 m ρ c)

/-- … and the scatters' list passes the third stretch and the third call the same way. -/
theorem W6_v11 (c : Dev nD) : W6 m ρ c (Proc.devRef .tc main_v11) = padded (dstIdx (edges m c)) 50000#32 :=
  (W6_of_ne m ρ c main_v11 (by decide)).trans (Eq.trans (by unwritten_by hostOps2) (W4_v11 m ρ c))

/-! ## The launch arguments at the boundaries that read them -/

/-- The first layer's weights reach the second stretch's end as launched. -/
theorem W3_arg2 (c : Dev nD) : W3 m ρ c (Proc.devRef .tc main_arg2) = m ((c.tc : Thread nD τ).loc main_arg2) :=
  calc W3 m ρ c (Proc.devRef .tc main_arg2)
    _ = W2 m ρ c (Proc.devRef .tc main_arg2) := by unwritten_by hostOps1
    _ = W1 m ρ c (Proc.devRef .tc main_arg2) := W2_of_ne m ρ c main_arg2 (by decide)
    _ = W0 m ρ c (Proc.devRef .tc main_arg2) := by unwritten_by hostOps0
    _ = m ((c.tc : Thread nD τ).loc main_arg2) := rfl
/-- The first bias reaches the first call's end as launched. -/
theorem W2_arg3 (c : Dev nD) : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by unwritten_by hostOps0
    _ = m ((c.tc : Thread nD τ).loc main_arg3) := rfl
/-- The second layer's weights reach the third call's end as launched … -/
theorem W6_arg4 (c : Dev nD) : W6 m ρ c (Proc.devRef .tc main_arg4) = m ((c.tc : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by unwritten_by hostOps2
    _ = W3 m ρ c (Proc.devRef .tc main_arg4) := W4_of_ne m ρ c main_arg4 (by decide)
    _ = W2 m ρ c (Proc.devRef .tc main_arg4) := by unwritten_by hostOps1
    _ = W1 m ρ c (Proc.devRef .tc main_arg4) := W2_of_ne m ρ c main_arg4 (by decide)
    _ = W0 m ρ c (Proc.devRef .tc main_arg4) := by unwritten_by hostOps0
    _ = m ((c.tc : Thread nD τ).loc main_arg4) := rfl
/-- … and so does the second bias. -/
theorem W6_arg5 (c : Dev nD) : W6 m ρ c (Proc.devRef .tc main_arg5) = m ((c.tc : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by unwritten_by hostOps2
    _ = W3 m ρ c (Proc.devRef .tc main_arg5) := W4_of_ne m ρ c main_arg5 (by decide)
    _ = W2 m ρ c (Proc.devRef .tc main_arg5) := by unwritten_by hostOps1
    _ = W1 m ρ c (Proc.devRef .tc main_arg5) := W2_of_ne m ρ c main_arg5 (by decide)
    _ = W0 m ρ c (Proc.devRef .tc main_arg5) := by unwritten_by hostOps0
    _ = m ((c.tc : Thread nD τ).loc main_arg5) := rfl

/-! ## Contents moved between a value's type and its buffer's type -/

/-- Contents moved to the buffer's own type and back are the contents. -/
theorem TRef_round {T : BufTy} {Val : EltTy → Type} (x : StableHlo.TRef sig T) (v : T.Contents Val) : x.ofBuf (x.toBuf v) = v := by
  obtain ⟨r, h, h1, h2⟩ := x
  subst h
  rfl
/-- At the result's buffer the move is the identity … -/
theorem toBuf_v52 (v : FVec F S50000x64 .f32) :
    (StableHlo.TRef.of main_v52 : StableHlo.TRef sig ⟨S50000x64, .f32⟩).toBuf (Val := Elt F) v = v := rfl
/-- … and so it is at the last call's output buffer. -/
theorem ofBuf_v51 (y : (main_v51 : Ref sig .tc).ty.Contents (Elt F)) :
    (StableHlo.TRef.of main_v51 : StableHlo.TRef sig ⟨S50000x64, .f32⟩).ofBuf (Val := Elt F) y = y := rfl

/-! ## What each call is entered with -/

/-- First edge-weighting call: its target rows are the node table's rows at the targets … -/
theorem entry0_xi (c : Dev nD) :
    V1 m ρ c main_v25 = Host.gather gather_S50000x128_S851968x1_S851968x128_1_0_n_n_0_1_1128 (m ((c.tc : Thread nD τ).loc main_arg0)) (wrap (padded (dstIdx (edges m c)) 0#32)) := by
  show StableHlo.after hostOps0 (W0 m ρ c) (Proc.devRef .tc main_v25) = _
  after_results_simp
  rfl
/-- … and its source rows the rows at the sources. -/
theorem entry0_xj (c : Dev nD) :
    V1 m ρ c main_v18 = Host.gather gather_S50000x128_S851968x1_S851968x128_1_0_n_n_0_1_1128 (m ((c.tc : Thread nD τ).loc main_arg0)) (wrap (padded (srcIdx (edges m c)) 0#32)) := by
  show StableHlo.after hostOps0 (W0 m ρ c) (Proc.devRef .tc main_v18) = _
  after_results_simp
  rfl

/-- First dense call: its aggregated table is the scatter-add of the first call's output rows into zeros … -/
theorem entry1_agg (c : Dev nD) :
    V3 m ρ c main_v29 = Host.scatterAdd scatter_S50000x128_S851968x1_S851968x128_1_0_0_1
      (broadcastInDim S50000x128 ![] bcast_S_S50000x128 (constant S_ .f32 0x00000000#32)) (col (padded (dstIdx (edges m c)) 50000#32))
      ((dat0 (V1 m ρ) c).arrAt 2 cfg0.N) := by
  have hout : W2 m ρ c (Proc.devRef .tc main_v26) = (dat0 (V1 m ρ) c).arrAt 2 cfg0.N := W2_arr m ρ c 2
  show StableHlo.after hostOps1 (W2 m ρ c) (Proc.devRef .tc main_v29) = _
  after_results_simp
  rw [W2_v11, hout]
  rfl
/-- … its weights the first layer's as launched, and its bias row the first bias reshaped. -/
theorem entry1_w (c : Dev nD) : V3 m ρ c main_arg2 = (m ((c.tc : Thread nD τ).loc main_arg2)) :=
  W3_arg2 m ρ c
theorem entry1_b (c : Dev nD) : V3 m ρ c main_v30 = shapeCast S1x256 (m ((c.tc : Thread nD τ).loc main_arg3)) shapeCasts_S256_S1x256 := by
  show StableHlo.after hostOps1 (W2 m ρ c) (Proc.devRef .tc main_v30) = _
  after_results_simp
  rw [W2_arg3]
  rfl

/-- Second edge-weighting call: rows of the first dense call's output at the targets and at the sources. -/
theorem entry2_xi (c : Dev nD) :
    V5 m ρ c main_v45 = Host.gather gather_S50000x256_S851968x1_S851968x256_1_0_n_n_0_1_1256 ((dat1 (V3 m ρ) c).arrAt 3 cfg1.N) (wrap (padded (dstIdx (edges m c)) 0#32)) := by
  have hout : W4 m ρ c (Proc.devRef .tc main_v31) = (dat1 (V3 m ρ) c).arrAt 3 cfg1.N := W4_arr m ρ c 3
  show StableHlo.after hostOps2 (W4 m ρ c) (Proc.devRef .tc main_v45) = _
  after_results_simp
  rw [W4_v10, hout]
  rfl
theorem entry2_xj (c : Dev nD) :
    V5 m ρ c main_v38 = Host.gather gather_S50000x256_S851968x1_S851968x256_1_0_n_n_0_1_1256 ((dat1 (V3 m ρ) c).arrAt 3 cfg1.N) (wrap (padded (srcIdx (edges m c)) 0#32)) := by
  have hout : W4 m ρ c (Proc.devRef .tc main_v31) = (dat1 (V3 m ρ) c).arrAt 3 cfg1.N := W4_arr m ρ c 3
  show StableHlo.after hostOps2 (W4 m ρ c) (Proc.devRef .tc main_v38) = _
  after_results_simp
  rw [W4_v9, hout]
  rfl

/-- Second dense call: the scatter-add of the second edge call's output rows into zeros, the second layer's weights, its bias reshaped. -/
theorem entry3_agg (c : Dev nD) :
    V7 m ρ c main_v49 = Host.scatterAdd scatter_S50000x256_S851968x1_S851968x256_1_0_0_1
      (broadcastInDim S50000x256 ![] bcast_S_S50000x256 (constant S_ .f32 0x00000000#32)) (col (padded (dstIdx (edges m c)) 50000#32))
      ((dat2 (V5 m ρ) c).arrAt 2 cfg2.N) := by
  have hout : W6 m ρ c (Proc.devRef .tc main_v46) = (dat2 (V5 m ρ) c).arrAt 2 cfg2.N := W6_arr m ρ c 2
  show StableHlo.after hostOps3 (W6 m ρ c) (Proc.devRef .tc main_v49) = _
  after_results_simp
  rw [W6_v11, hout]
  rfl
theorem entry3_w (c : Dev nD) : V7 m ρ c main_arg4 = (m ((c.tc : Thread nD τ).loc main_arg4)) :=
  Eq.trans (by unwritten_by hostOps3) (W6_arg4 m ρ c)
theorem entry3_b (c : Dev nD) : V7 m ρ c main_v50 = shapeCast S1x64 (m ((c.tc : Thread nD τ).loc main_arg5)) shapeCasts_S64_S1x64 := by
  show StableHlo.after hostOps3 (W6 m ρ c) (Proc.devRef .tc main_v50) = _
  after_results_simp
  rw [W6_arg5]
  rfl

/-! ## The result -/

/-- The program's result buffer at the last boundary: the log-softmax of the second dense call's output array. -/
theorem result (c : Dev nD) :
    W9 m ρ c (Proc.devRef .tc main_v52) = logSoftmax ((dat3 (V7 m ρ) c).arrAt 3 cfg3.N) := by
  have hout : W8 m ρ c (Proc.devRef .tc main_v51) = (dat3 (V7 m ρ) c).arrAt 3 cfg3.N := W8_arr m ρ c 3
  show StableHlo.after hostOps4 (W8 m ρ c) (Proc.devRef .tc main_v52) = _
  after_results_simp
  rw [hout]
  generalize (dat3 (V7 m ρ) c).arrAt 3 cfg3.N = y
  simp only [TRef_round]
  rw [toBuf_v52]
  simp only [ofBuf_v51]
  rfl

end Cert.KernelIdeal.KChain

end
-- ==== Proof.IdxFacts.lean ====
/-
  The kernel's padded index lists against the plain program's lists.

  Both programs build the same two lists of 850000 row numbers from the edge list (sources, targets, self loops
  appended). The plain program uses them as they are; the kernel's program pads them to 851968 entries: with row 0 for
  its gathers and with the row number 50000 for its scatters. So on the first 850000 entries the kernel's gather
  columns (negative numbers counted from the end) and scatter column are the plain program's, entry by entry, and on
  the last 1968 entries the scatter column holds 50000.
-/
import proofs.«107164_j5385888989441_1_alg».proof.Proof.KChain
import proofs.«107164_j5385888989441_1_alg».proof.Proof.RefReadP
import Idealize.ShloMosaic.Lib.ValueIdx
import Idealize.ShloMosaic.Lib.Pipeline.Value

noncomputable section

namespace Cert.IdxFacts

open Idealize.ShloMosaic Idealize.ShloMosaic.ValueIdx
open Cert.KernelIdeal.KChain (srcIdx dstIdx padded wrap col)

variable {F : FTy → Type} [FloatOps F]

/-- An entry of the first 850000 as an entry of the padded list, and an entry of the padding. -/
abbrev inL (e : Fin 850000) : Fin 851968 := Fin.castLE (by decide) e
abbrev inR (e : Fin 1968) : Fin 851968 := ⟨850000 + e.val, by omega⟩

variable (x1 : IVec (⟨2, ![2, 800000]⟩ : Shape) 32)

/-! ## The two programs build the same lists -/

/-- The kernel's list of sources is the plain program's: the same operations on the edge list, one after the other. -/
theorem srcIdx_eq : srcIdx x1 = Cert.ReferenceIdeal.ReadP.val_main_v3 (F := F) x1 := rfl
/-- The kernel's list of targets is the plain program's. -/
theorem dstIdx_eq : dstIdx x1 = Cert.ReferenceIdeal.ReadP.val_main_v6 (F := F) x1 := rfl

/-! ## The padded list, the column and the wrapped column at an entry -/

/-- A padded list at one of its first 850000 entries is the list it pads. -/
theorem padded_inL (v : IVec (⟨1, ![850000]⟩ : Shape) 32) (w : BitVec 32) (e : Fin 850000) :
    padded v w (ix1 (inL e)) = v (ix1 e) := by
  unfold padded
  exact concatenate_pair_apply_left (t := ⟨1, ![851968]⟩) (s₁ := ⟨1, ![850000]⟩) (s₂ := ⟨1, ![1968]⟩) 0 v _ _
    (ix1 (inL e)) rfl (ix1 e) (fun b => match b with | ⟨0, _⟩ => rfl)

/-- A padded list at one of its last 1968 entries is the padding word. -/
theorem padded_inR (v : IVec (⟨1, ![850000]⟩ : Shape) 32) (w : BitVec 32) (e : Fin 1968) :
    padded v w (ix1 (inR e)) = w := by
  unfold padded
  rw [concatenate_pair_apply_right (t := ⟨1, ![851968]⟩) (s₁ := ⟨1, ![850000]⟩) (s₂ := ⟨1, ![1968]⟩) 0 v _ _
    (ix1 (inR e)) rfl rfl (ix1 e) (fun b hb => match b, hb with | ⟨0, _⟩, hb => absurd rfl hb)
    (by show e.val + 850000 = 850000 + e.val; omega)]
  rfl

/-- A list as a column, at row `j`: the list's entry `j`. -/
theorem col_apply (v : IVec (⟨1, ![851968]⟩ : Shape) 32) (j : Fin 851968) :
    col v (ix2 j (0 : Fin 1)) = v (ix1 j) := by
  unfold col
  exact broadcastInDim_apply _ _ v _ (ix1 j) (fun a => match a with
    | ⟨0, _⟩ => by show j.val = if (851968 : Nat) = 1 then 0 else j.val; rw [if_neg (by decide)])

/-- The wrapped column at row `j`: the list's entry `j`, plus 50000 when it is negative. -/
theorem wrap_apply (v : IVec (⟨1, ![851968]⟩ : Shape) 32) (j : Fin 851968) :
    wrap v (ix2 j (0 : Fin 1)) = Scalar.select (IntOp.cmpi .slt (v (ix1 j)) 0#32) (IntOp.addi (v (ix1 j)) 50000#32) (v (ix1 j)) := by
  unfold wrap
  rw [broadcastInDim_apply _ _ _ _ (ix1 j) (fun a => match a with
    | ⟨0, _⟩ => by show j.val = if (851968 : Nat) = 1 then 0 else j.val; rw [if_neg (by decide)])]
  rfl

/-- The plain program's column of a list of 850000 entries, at row `e`: the list's entry `e`. -/
theorem ref_col_apply (y : IVec (⟨1, ![850000]⟩ : Shape) 32) (e : Fin 850000) :
    broadcastInDim (⟨2, ![850000, 1]⟩ : Shape) ![0] Cert.ReferenceIdeal.Gen.bcast_S850000_S850000x1_0 y (ix2 e (0 : Fin 1)) = y (ix1 e) :=
  broadcastInDim_apply _ _ y _ (ix1 e) (fun a => match a with
    | ⟨0, _⟩ => by show e.val = if (850000 : Nat) = 1 then 0 else e.val; rw [if_neg (by decide)])

/-! ## The kernel's columns against the plain program's

Each side is brought to the same expression in one entry of the shared list: the entry itself for a scatter column,
the entry plus 50000 when negative for a gather column (the plain program's comparison with 0 and addition of 50000
read entry by entry are these by definition). -/

/-- The kernel's gather column of sources is the plain program's on the unpadded entries (both of its uses). -/
theorem wrap_src (e : Fin 850000) :
    wrap (padded (srcIdx x1) 0#32) (ix2 (inL e) (0 : Fin 1)) = Cert.ReferenceIdeal.ReadP.val_main_v12 (F := F) x1 (ix2 e (0 : Fin 1)) := by
  rw [wrap_apply, padded_inL, srcIdx_eq (F := F)]
  unfold Cert.ReferenceIdeal.ReadP.val_main_v12
  rw [ref_col_apply]
  rfl
theorem wrap_src' (e : Fin 850000) :
    wrap (padded (srcIdx x1) 0#32) (ix2 (inL e) (0 : Fin 1)) = Cert.ReferenceIdeal.ReadP.val_main_v49 (F := F) x1 (ix2 e (0 : Fin 1)) := by
  rw [wrap_apply, padded_inL, srcIdx_eq (F := F)]
  unfold Cert.ReferenceIdeal.ReadP.val_main_v49
  rw [ref_col_apply]
  rfl

/-- The kernel's gather column of targets is the plain program's on the unpadded entries (both of its uses). -/
theorem wrap_dst (e : Fin 850000) :
    wrap (padded (dstIdx x1) 0#32) (ix2 (inL e) (0 : Fin 1)) = Cert.ReferenceIdeal.ReadP.val_main_v19 (F := F) x1 (ix2 e (0 : Fin 1)) := by
  rw [wrap_apply, padded_inL, dstIdx_eq (F := F)]
  unfold Cert.ReferenceIdeal.ReadP.val_main_v19
  rw [ref_col_apply]
  rfl
theorem wrap_dst' (e : Fin 850000) :
    wrap (padded (dstIdx x1) 0#32) (ix2 (inL e) (0 : Fin 1)) = Cert.ReferenceIdeal.ReadP.val_main_v56 (F := F) x1 (ix2 e (0 : Fin 1)) := by
  rw [wrap_apply, padded_inL, dstIdx_eq (F := F)]
  unfold Cert.ReferenceIdeal.ReadP.val_main_v56
  rw [ref_col_apply]
  rfl

/-- The kernel's scatter column is the plain program's on the unpadded entries (both of its uses) … -/
theorem col_dst (e : Fin 850000) :
    col (padded (dstIdx x1) 50000#32) (ix2 (inL e) (0 : Fin 1)) = Cert.ReferenceIdeal.ReadP.val_main_v36 (F := F) x1 (ix2 e (0 : Fin 1)) := by
  rw [col_apply, padded_inL, dstIdx_eq (F := F)]
  unfold Cert.ReferenceIdeal.ReadP.val_main_v36
  rw [ref_col_apply]
theorem col_dst' (e : Fin 850000) :
    col (padded (dstIdx x1) 50000#32) (ix2 (inL e) (0 : Fin 1)) = Cert.ReferenceIdeal.ReadP.val_main_v73 (F := F) x1 (ix2 e (0 : Fin 1)) := by
  rw [col_apply, padded_inL, dstIdx_eq (F := F)]
  unfold Cert.ReferenceIdeal.ReadP.val_main_v73
  rw [ref_col_apply]
/-- … and holds the row number 50000 on the padding. -/
theorem col_pad (e : Fin 1968) :
    col (padded (dstIdx x1) 50000#32) (ix2 (inR e) (0 : Fin 1)) = 50000#32 := by
  rw [col_apply, padded_inR]

end Cert.IdxFacts

end
-- ==== Proof.RefEdge.lean ====
/-
  The plain program's per-edge messages, row by row.

  In each of its two layers the plain program multiplies the gathered source rows by the edge weights it computes from
  the gathered target and source rows (row sums from zero, square roots, the floor `ε`, the quotient, the compare with
  `1/2` converted to a float, two broadcasts). At `(e, k)` that is the source element times the weight of edge `e`.
-/
import proofs.«107164_j5385888989441_1_alg».proof.Proof.RefReadP
import proofs.«107164_j5385888989441_1_alg».proof.Proof.LibCosine

noncomputable section

namespace Cert.ReferenceIdeal.RefEdge

open Cert.ReferenceIdeal Cert.ReferenceIdeal.Gen Cert.ReferenceIdeal.ReadP
open Idealize.ShloMosaic Idealize.ShloMosaic.ValueIdx

/-- First layer: the message of edge `e` at column `k` is the gathered source element times the weight of the edge's
    target and source rows. -/
theorem msg1 (x0 : (⟨S50000x128, .f32⟩ : BufTy).Contents (Elt Ideal)) (x1 : (⟨S2x800000, .i32⟩ : BufTy).Contents (Elt Ideal))
    (e : Fin 850000) (k : Fin 128) :
    val_main_v34 (F := Ideal) x0 x1 (ix2 e k)
      = val_main_v13 (F := Ideal) x0 x1 (ix2 e k)
        * Cert.Lib.cosMask (fun k => val_main_v20 (F := Ideal) x0 x1 (ix2 e k)) (fun k => val_main_v13 (F := Ideal) x0 x1 (ix2 e k)) := by
  unfold val_main_v34 val_main_v33 val_main_v32 val_main_v31 val_main_v30 val_main_v29 val_main_cst_4 val_main_v28 val_main_v27
    val_main_v26 val_main_cst_3 val_main_v25 val_main_v24 val_main_call1_v1 val_main_call1_cst val_main_call1_v0
    val_main_v23 val_main_call0_v1 val_main_call0_cst val_main_call0_v0 val_main_v22 val_main_cst val_main_v21
  exact Cert.Lib.edge_rows_host reducesTo_S850000x128_S850000_d1 h_S_ bcast_S_S850000 bcast_S850000_S850000x1_0
    bcast_S850000x1_S850000x128_0_1 (val_main_v20 (F := Ideal) x0 x1) (val_main_v13 (F := Ideal) x0 x1) e k

/-- Second layer: the same over the first layer's output table, 256 columns. -/
theorem msg2 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (e : Fin 850000) (k : Fin 256) :
    val_main_v71 (F := Ideal) x0 x1 x2 x3 (ix2 e k)
      = val_main_v50 (F := Ideal) x0 x1 x2 x3 (ix2 e k)
        * Cert.Lib.cosMask (fun k => val_main_v57 (F := Ideal) x0 x1 x2 x3 (ix2 e k)) (fun k => val_main_v50 (F := Ideal) x0 x1 x2 x3 (ix2 e k)) := by
  unfold val_main_v71 val_main_v70 val_main_v69 val_main_v68 val_main_v67 val_main_v66 val_main_cst_12 val_main_v65 val_main_v64
    val_main_v63 val_main_cst_11 val_main_v62 val_main_v61 val_main_call4_v1 val_main_call4_cst val_main_call4_v0
    val_main_v60 val_main_call3_v1 val_main_call3_cst val_main_call3_v0 val_main_v59 val_main_cst_10 val_main_v58
  exact Cert.Lib.edge_rows_host reducesTo_S850000x256_S850000_d1 h_S_ bcast_S_S850000 bcast_S850000_S850000x1_0
    bcast_S850000x1_S850000x256_0_1 (val_main_v57 (F := Ideal) x0 x1 x2 x3) (val_main_v50 (F := Ideal) x0 x1 x2 x3) e k

end Cert.ReferenceIdeal.RefEdge

end
-- ==== Proof.LibRowOps.lean ====
/-
  A table of rows gathered and scattered by a list of row numbers, read at an index.

  `x[idx]` of a matrix `x : [N, D]` at a list `idx : [E]` of row numbers is a gather whose start indices are the
  column `[E, 1]`: row `e` of the result is row `idx e` of `x`, the number read as a signed integer and clamped
  into `[0, N - 1]`. The accumulating scatter of the rows of `upd : [E, D]` into `x : [N, D]` at the same kind of
  list adds, over the extended reals, to element `(n, k)` every `upd (e, k)` whose row number `idx e`, read
  signed and NOT clamped, is `n`; a row whose number falls outside `[0, N)` adds nothing. Nothing here depends on
  the sizes.
-/
import Idealize.ShloMosaic.Lib.ValueIdx
import Idealize.ShloMosaic.Lib.Pipeline.Value
import Idealize.ShloMosaic.PureOps.Ideal.Laws

noncomputable section

namespace Cert.Lib

open Idealize.ShloMosaic Idealize.ShloMosaic.ValueIdx

/-- The dimension numbers of `x[idx]` for `x : [N, D]`, the start indices a column `[E, 1]`, the result `[E, D]`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- On the indexed axis of the operand the row gather reads the row number, signed and clamped: the start index
    clamped into `[0, N - 1]`, no batching coordinate, no offset (the axis is collapsed). -/
theorem rowGather_coord0 {N D E w : ℕ}
    (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    ((rowGatherDims N D E wf).operandIdx (ix2 e k) idx 0).val = min (idx (ix2 e (0 : Fin 1))).toInt.toNat (N - 1) := by
  show (rowGatherDims N D E wf).start (ix2 e k) idx 0 + (rowGatherDims N D E wf).batchCoord (ix2 e k) 0
      + (rowGatherDims N D E wf).offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N D E wf).startIndexMap from List.mem_singleton.mpr rfl)]
  have hsi : (rowGatherDims N D E wf).siIdx (ix2 e k) ⟨List.idxOf (0 : Fin 2) (rowGatherDims N D E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the other axis the row gather reads the result's own column: no start index names the axis, so the slice
    starts at `0`, and the offset is the result's coordinate on its one offset axis. -/
theorem rowGather_coord1 {N D E w : ℕ}
    (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    ((rowGatherDims N D E wf).operandIdx (ix2 e k) idx 1).val = k.val := by
  show (rowGatherDims N D E wf).start (ix2 e k) idx 1 + (rowGatherDims N D E wf).batchCoord (ix2 e k) 1
      + (rowGatherDims N D E wf).offCoord (ix2 e k) 1 = _
  rw [GatherDims.batchCoord_eq_zero _ _ _ List.not_mem_nil]
  have h1 : (1 : Fin 2) ∉ (rowGatherDims N D E wf).startIndexMap := fun h =>
    Nat.one_ne_zero (congrArg Fin.val (List.mem_singleton.mp h))
  have h2 : (1 : Fin 2) ∈ (rowGatherDims N D E wf).sKept :=
    (GatherDims.mem_sKept _ _).mpr ⟨fun h => Nat.one_ne_zero (congrArg Fin.val (List.mem_singleton.mp h)), List.not_mem_nil⟩
  unfold GatherDims.start
  rw [dif_neg h1]
  unfold GatherDims.offCoord
  rw [dif_pos h2]
  simp only [Nat.zero_add, Nat.add_zero]
  rfl

/-- THE ROW GATHER READ AT `(e, k)`: the operand at row `idx (e, 0)`, read signed and clamped into `[0, N - 1]`,
    column `k`. -/
theorem gather_rows_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N D E wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ => exact rowGather_coord0 wf idx e k
  | ⟨1, _⟩ => exact rowGather_coord1 wf idx e k

/-- The dimension numbers of the row scatter: updates `[E, D]`, their row numbers a column `[E, 1]`, into `[N, D]`. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update lands on operand index `i` exactly when, on every axis, its start plus its window coordinate is
    `i`'s coordinate (as integers): the sum is then inside the operand on every axis, and an update whose sum
    leaves the operand on some axis lands nowhere. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · rintro rfl a
      have := (h a).1
      show _ = (((d.start j idx a + (d.window j a : ℤ)).toNat : ℕ) : ℤ)
      omega
    · intro hi
      funext a; refine Fin.ext ?_
      show (d.start j idx a + (d.window j a : ℤ)).toNat = (i a).val
      rw [hi a]; simp
  · rename_i h
    constructor
    · intro hf; cases hf
    · intro hi; exfalso; apply h; intro a; rw [hi a]
      have := (i a).isLt
      exact ⟨by omega, by exact_mod_cast this⟩

/-- The row scatter's window starts, on the operand's row axis, at the update row's number read signed. -/
theorem rowScatter_start0 {N D E w : ℕ}
    (wf : ScatterDims.WF ⟨2, ![N, D]⟩ ⟨2, ![E, 1]⟩ ⟨2, ![E, D]⟩ [1] [0] [0] 1)
    (idx : IVec ⟨2, ![E, 1]⟩ w) (e : Fin E) (k' : Fin D) :
    (rowScatterDims N D E wf).start (ix2 e k') idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e k')
      ⟨List.idxOf (0 : Fin 2) (rowScatterDims N D E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index names, the window starts at `0`. -/
theorem rowScatter_start1 {N D E w : ℕ}
    (wf : ScatterDims.WF ⟨2, ![N, D]⟩ ⟨2, ![E, 1]⟩ ⟨2, ![E, D]⟩ [1] [0] [0] 1)
    (idx : IVec ⟨2, ![E, 1]⟩ w) (e : Fin E) (k' : Fin D) :
    (rowScatterDims N D E wf).start (ix2 e k') idx 1 = 0 := by
  unfold ScatterDims.start
  rw [dif_neg (fun h => Nat.one_ne_zero (congrArg Fin.val (List.mem_singleton.mp h)))]

/-- The row axis is an inserted one: the window has no extent along it. -/
theorem rowScatter_window0 {N D E : ℕ}
    (wf : ScatterDims.WF ⟨2, ![N, D]⟩ ⟨2, ![E, 1]⟩ ⟨2, ![E, D]⟩ [1] [0] [0] 1) (e : Fin E) (k' : Fin D) :
    (rowScatterDims N D E wf).window (ix2 e k') 0 = 0 := by
  unfold ScatterDims.window
  rw [dif_neg (fun h => by
    have := (List.mem_filter.mp h).2
    simp at this)]

/-- Along the column axis the window coordinate is the update's column. -/
theorem rowScatter_window1 {N D E : ℕ}
    (wf : ScatterDims.WF ⟨2, ![N, D]⟩ ⟨2, ![E, 1]⟩ ⟨2, ![E, D]⟩ [1] [0] [0] 1) (e : Fin E) (k' : Fin D) :
    (rowScatterDims N D E wf).window (ix2 e k') 1 = k'.val := by
  have h2 : (1 : Fin 2) ∈ (rowScatterDims N D E wf).sKept :=
    List.mem_filter.mpr ⟨List.mem_finRange _, by simp⟩
  unfold ScatterDims.window
  rw [dif_pos h2]
  rfl

/-- Update `(e, k')` lands on `(n, k)` exactly when row `e`'s number, read signed, is `n` and `k' = k`. -/
theorem rowScatter_resultIdx?_iff {N D E w : ℕ}
    (wf : ScatterDims.WF ⟨2, ![N, D]⟩ ⟨2, ![E, 1]⟩ ⟨2, ![E, D]⟩ [1] [0] [0] 1)
    (idx : IVec ⟨2, ![E, 1]⟩ w) (e : Fin E) (k' : Fin D) (n : Fin N) (k : Fin D) :
    (rowScatterDims N D E wf).resultIdx? (ix2 e k') idx = some (ix2 n k)
      ↔ (idx (ix2 e (0 : Fin 1))).toInt = (n.val : ℤ) ∧ k' = k := by
  rw [resultIdx?_eq_some_iff]
  show (∀ a : Fin 2, _) ↔ _
  rw [Fin.forall_fin_two, rowScatter_start0, rowScatter_start1, rowScatter_window0, rowScatter_window1]
  show (idx (ix2 e (0 : Fin 1))).toInt + ((0 : ℕ) : ℤ) = (n.val : ℤ) ∧ (0 : ℤ) + (k'.val : ℤ) = (k.val : ℤ) ↔ _
  constructor
  · rintro ⟨h1, h2⟩; exact ⟨by omega, Fin.ext (by omega)⟩
  · rintro ⟨h1, rfl⟩; exact ⟨by omega, by omega⟩

/-- THE ACCUMULATING ROW SCATTER READ AT `(n, k)`, over the extended reals: the operand's element plus the sum, over
    the update rows `e` whose row number read signed is exactly `n`, of `upd (e, k)`. -/
theorem scatterAdd_rows_apply {N D E w : ℕ}
    (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (n : Fin N) (k : Fin D) :
    Host.scatterAdd (F := Ideal) (rowScatterDims N D E wf) x idx upd (ix2 n k)
      = x (ix2 n k) + ∑ e : Fin E, if (idx (ix2 e (0 : Fin 1))).toInt = (n.val : ℤ) then upd (ix2 e k) else 0 := by
  show x (ix2 n k) + ∑ j ∈ Finset.univ.filter
      (fun j => (rowScatterDims N D E wf).resultIdx? j idx = some (ix2 n k)), upd j = _
  congr 1
  rw [Finset.sum_filter, sum_idx2]
  refine Finset.sum_congr rfl fun e _ => ?_
  simp only [rowScatter_resultIdx?_iff]
  by_cases h : (idx (ix2 e (0 : Fin 1))).toInt = (n.val : ℤ)
  · simp [h]
  · simp [h]

end Cert.Lib

end
-- ==== Proof.Bridge1.lean ====
/-
  First layer: the kernel's program and the plain program compute the same table.

  Both gather the node table's rows at the edges' sources and targets, weight each edge by the cosine test of its
  two rows, scatter-add the weighted source rows to the targets, and apply the dense layer with the maximum with zero.
  The kernel's program does it over 851968 padded edges; its 1968 padding edges read row 0 twice but are scattered to
  row number 50000, outside the table, so they add nothing: the sum over the padded edges landing on a row is the sum
  over the true edges landing there, and on the true edges the two programs' gathered rows, hence weights and messages,
  are the same because their index lists are.
-/
import proofs.«107164_j5385888989441_1_alg».proof.Proof.KEdge
import proofs.«107164_j5385888989441_1_alg».proof.Proof.KLin
import proofs.«107164_j5385888989441_1_alg».proof.Proof.KChain
import proofs.«107164_j5385888989441_1_alg».proof.Proof.IdxFacts
import proofs.«107164_j5385888989441_1_alg».proof.Proof.RefEdge
import proofs.«107164_j5385888989441_1_alg».proof.Proof.LibRowOps
import proofs.«107164_j5385888989441_1_alg».proof.Proof.LibAffineRows

noncomputable section

namespace Cert.Bridge

open Idealize.ShloMosaic Idealize.ShloMosaic.TcCoe Idealize.ShloMosaic.ValueIdx Idealize.SL.Sem
open Cert.KernelIdeal Cert.KernelIdeal.Gen Cert.KernelIdeal.KEdge Cert.KernelIdeal.KLin Cert.KernelIdeal.KChain
open Cert.ReferenceIdeal.ReadP
open Cert.IdxFacts (inL inR)

/-! ## A sum over the padded edges whose padding adds nothing -/

/-- A sum over 851968 entries whose last 1968 terms vanish is the sum over the first 850000. -/
theorem sum_padded {M : Type} [AddCommMonoid M] (f : Fin 851968 → M) (hpad : ∀ e : Fin 1968, f (inR e) = 0) :
    ∑ e : Fin 851968, f e = ∑ e : Fin 850000, f (inL e) := by
  have h := Fin.sum_univ_add (M := M) (a := 850000) (b := 1968) f
  refine h.trans ?_
  have hz : ∑ i : Fin 1968, f (Fin.natAdd 850000 i) = 0 :=
    Finset.sum_eq_zero fun i _ => (congrArg f (Fin.ext rfl)).trans (hpad i)
  rw [hz, add_zero]
  exact Finset.sum_congr rfl fun i _ => congrArg f (Fin.ext rfl)

variable (m : (ℓ : Loc nD τ sig) → Buf (Elt Ideal) ℓ) (ρ : Dev nD → PrngReg) (c : Dev nD)

/-- The launch arguments at their literal types. -/
abbrev a0 : FVec Ideal S50000x128 .f32 := m ((c.tc : Thread nD τ).loc main_arg0)
abbrev a1 : IVec S2x800000 32 := m ((c.tc : Thread nD τ).loc main_arg1)
abbrev a2 : FVec Ideal S256x128 .f32 := m ((c.tc : Thread nD τ).loc main_arg2)
abbrev a3 : FVec Ideal S256 .f32 := m ((c.tc : Thread nD τ).loc main_arg3)
abbrev a4 : FVec Ideal S64x256 .f32 := m ((c.tc : Thread nD τ).loc main_arg4)
abbrev a5 : FVec Ideal S64 .f32 := m ((c.tc : Thread nD τ).loc main_arg5)

/-! ## The gathered rows on the true edges -/

/-- The kernel's gathered source rows are the plain program's on the true edges. -/
theorem xj1_eq (e : Fin 850000) (k : Fin 128) :
    xj0 (V1 m ρ) c (ix2 (inL e) k) = val_main_v13 (F := Ideal) (a0 m c) (a1 m c) (ix2 e k) := by
  refine (congrFun (entry0_xj m ρ c) (ix2 (inL e) k)).trans ?_
  refine (Cert.Lib.gather_rows_apply (N := 50000) (D := 128) (E := 851968) (by decide)
    Cert.KernelIdeal.Facts₀.gather_S50000x128_S851968x1_S851968x128_1_0_n_n_0_1_1128_wf _ _ (inL e) k).trans ?_
  unfold val_main_v13
  refine Eq.trans ?_ (Cert.Lib.gather_rows_apply (N := 50000) (D := 128) (E := 850000) (by decide)
    Cert.ReferenceIdeal.Facts₀.gather_S50000x128_S850000x1_S850000x128_1_0_n_n_0_1_1128_wf _ _ e k).symm
  simp only [Cert.IdxFacts.wrap_src (F := Ideal) (edges m c) e]

/-- The kernel's gathered target rows are the plain program's on the true edges. -/
theorem xi1_eq (e : Fin 850000) (k : Fin 128) :
    xi0 (V1 m ρ) c (ix2 (inL e) k) = val_main_v20 (F := Ideal) (a0 m c) (a1 m c) (ix2 e k) := by
  refine (congrFun (entry0_xi m ρ c) (ix2 (inL e) k)).trans ?_
  refine (Cert.Lib.gather_rows_apply (N := 50000) (D := 128) (E := 851968) (by decide)
    Cert.KernelIdeal.Facts₀.gather_S50000x128_S851968x1_S851968x128_1_0_n_n_0_1_1128_wf _ _ (inL e) k).trans ?_
  unfold val_main_v20
  refine Eq.trans ?_ (Cert.Lib.gather_rows_apply (N := 50000) (D := 128) (E := 850000) (by decide)
    Cert.ReferenceIdeal.Facts₀.gather_S50000x128_S850000x1_S850000x128_1_0_n_n_0_1_1128_wf _ _ e k).symm
  simp only [Cert.IdxFacts.wrap_dst (F := Ideal) (edges m c) e]

/-- So the messages on the true edges are the same. -/
theorem msg1_eq (e : Fin 850000) (k : Fin 128) :
    out0 (V1 m ρ) c (ix2 (inL e) k) = val_main_v34 (F := Ideal) (a0 m c) (a1 m c) (ix2 e k) := by
  rw [final0 (V1 m ρ) c (inL e) k, Cert.ReferenceIdeal.RefEdge.msg1]
  simp only [xj1_eq m ρ c e, xi1_eq m ρ c e]

/-! ## The aggregated table -/

/-- The kernel's aggregated table is the plain program's: the padding edges land outside the table. -/
theorem agg1_eq : agg1 (V3 m ρ) c = val_main_v37 (F := Ideal) (a0 m c) (a1 m c) := by
  funext j
  obtain ⟨n, k, rfl⟩ : ∃ (n : Fin 50000) (k : Fin 128), j = ix2 n k := ⟨j 0, j 1, eq_ix2 j⟩
  refine (congrFun (entry1_agg m ρ c) (ix2 n k)).trans ?_
  unfold val_main_v37
  refine (Cert.Lib.scatterAdd_rows_apply (N := 50000) (D := 128) (E := 851968)
    Cert.KernelIdeal.Facts₀.scatter_S50000x128_S851968x1_S851968x128_1_0_0_1_wf _ _ _ n k).trans ?_
  refine Eq.trans ?_ (Cert.Lib.scatterAdd_rows_apply (N := 50000) (D := 128) (E := 850000)
    Cert.ReferenceIdeal.Facts₀.scatter_S50000x128_S850000x1_S850000x128_1_0_0_1_wf _ _ _ n k).symm
  refine congrArg₂ (· + ·) rfl ?_
  rw [sum_padded _ (fun e => by
    rw [Cert.IdxFacts.col_pad (edges m c) e, if_neg]
    have := n.isLt
    show ¬ ((50000#32 : BitVec 32).toInt = (n.val : ℤ))
    have h5 : (50000#32 : BitVec 32).toInt = 50000 := by decide
    rw [h5]; omega)]
  refine Finset.sum_congr rfl fun e _ => ?_
  rw [Cert.IdxFacts.col_dst (F := Ideal) (edges m c) e]
  exact if_congr Iff.rfl (msg1_eq m ρ c e k) rfl

/-! ## The dense layer -/

/-- A vector reshaped to a one-row matrix reads the vector. -/
theorem reshape_row_apply {M : ℕ} (x : FVec Ideal ⟨1, ![M]⟩ .f32) (h : (⟨1, ![M]⟩ : Shape).ShapeCasts ⟨2, ![1, M]⟩) (q : Fin M) :
    shapeCast ⟨2, ![1, M]⟩ x h (ix2 (0 : Fin 1) q) = x (ix1 q) :=
  shapeCast_a_1a_apply x h 0 q

/-- The plain product's dimension numbers of the first layer describe the textbook product. -/
theorem plain1 : Cert.Lib.PlainDot Cert.ReferenceIdeal.dot_S50000x128_S128x256_S50000x256_1_0_0_1_n_n :=
  plainDot_of_fields _ rfl rfl rfl rfl rfl rfl

/-- THE FIRST LAYER: the kernel's first dense call leaves the plain program's first-layer table. -/
theorem layer1_eq : out1 (V3 m ρ) c = val_main_v43 (F := Ideal) (a0 m c) (a1 m c) (a2 m c) (a3 m c) := by
  funext j
  obtain ⟨n, q, rfl⟩ : ∃ (n : Fin 50000) (q : Fin 256), j = ix2 n q := ⟨j 0, j 1, eq_ix2 j⟩
  refine (final1 (V3 m ρ) c Cert.ReferenceIdeal.dot_S50000x128_S128x256_S50000x256_1_0_0_1_n_n plain1
    Cert.ReferenceIdeal.Facts₀.transposes_S256x128_S128x256_1_0 Cert.ReferenceIdeal.Facts₀.bcast_S256_S1x256_1 Cert.ReferenceIdeal.Facts₀.bcast_S1x256_S50000x256_0_1 Cert.ReferenceIdeal.Facts₀.bcast_S_S50000x256
    (a3 m c) (fun q => (congrFun (entry1_b m ρ c) (ix2 (0 : Fin 1) q)).trans (reshape_row_apply _ _ q)) n q).trans ?_
  unfold val_main_v43 val_main_v42 val_main_v41 val_main_v40 val_main_v39 val_main_v38 val_main_call2_v0 val_main_call2_cst
  rw [agg1_eq m ρ c, show w1 (V3 m ρ) c = a2 m c from entry1_w m ρ c]

end Cert.Bridge

end
-- ==== Proof.Bridge2.lean ====
/-
  Second layer and the result: the kernel's program computes the plain program's result.

  The second layer repeats the first over the first layer's table, 256 columns wide, without the maximum with zero; the
  same argument applies once the first layer's tables are known equal. Both programs end with the same row-wise
  log-softmax, which is never opened: equal tables go in, so equal tables come out.
-/
import proofs.«107164_j5385888989441_1_alg».proof.Proof.Bridge1

noncomputable section

namespace Cert.Bridge

open Idealize.ShloMosaic Idealize.ShloMosaic.TcCoe Idealize.ShloMosaic.ValueIdx Idealize.SL.Sem
open Cert.KernelIdeal Cert.KernelIdeal.Gen Cert.KernelIdeal.KEdge Cert.KernelIdeal.KLin Cert.KernelIdeal.KChain
open Cert.ReferenceIdeal.ReadP
open Cert.IdxFacts (inL inR)

variable (m : (ℓ : Loc nD τ sig) → Buf (Elt Ideal) ℓ) (ρ : Dev nD → PrngReg) (c : Dev nD)

/-! ## The gathered rows of the first layer's table on the true edges -/

theorem xj2_eq (e : Fin 850000) (k : Fin 256) :
    xj2 (V5 m ρ) c (ix2 (inL e) k) = val_main_v50 (F := Ideal) (a0 m c) (a1 m c) (a2 m c) (a3 m c) (ix2 e k) := by
  refine (congrFun (entry2_xj m ρ c) (ix2 (inL e) k)).trans ?_
  refine (Cert.Lib.gather_rows_apply (N := 50000) (D := 256) (E := 851968) (by decide)
    Cert.KernelIdeal.Facts₀.gather_S50000x256_S851968x1_S851968x256_1_0_n_n_0_1_1256_wf _ _ (inL e) k).trans ?_
  refine (congrFun (layer1_eq m ρ c) _).trans ?_
  unfold val_main_v50
  refine Eq.trans ?_ (Cert.Lib.gather_rows_apply (N := 50000) (D := 256) (E := 850000) (by decide)
    Cert.ReferenceIdeal.Facts₀.gather_S50000x256_S850000x1_S850000x256_1_0_n_n_0_1_1256_wf _ _ e k).symm
  simp only [Cert.IdxFacts.wrap_src' (F := Ideal) (edges m c) e]

theorem xi2_eq (e : Fin 850000) (k : Fin 256) :
    xi2 (V5 m ρ) c (ix2 (inL e) k) = val_main_v57 (F := Ideal) (a0 m c) (a1 m c) (a2 m c) (a3 m c) (ix2 e k) := by
  refine (congrFun (entry2_xi m ρ c) (ix2 (inL e) k)).trans ?_
  refine (Cert.Lib.gather_rows_apply (N := 50000) (D := 256) (E := 851968) (by decide)
    Cert.KernelIdeal.Facts₀.gather_S50000x256_S851968x1_S851968x256_1_0_n_n_0_1_1256_wf _ _ (inL e) k).trans ?_
  refine (congrFun (layer1_eq m ρ c) _).trans ?_
  unfold val_main_v57
  refine Eq.trans ?_ (Cert.Lib.gather_rows_apply (N := 50000) (D := 256) (E := 850000) (by decide)
    Cert.ReferenceIdeal.Facts₀.gather_S50000x256_S850000x1_S850000x256_1_0_n_n_0_1_1256_wf _ _ e k).symm
  simp only [Cert.IdxFacts.wrap_dst' (F := Ideal) (edges m c) e]

/-- The second layer's messages on the true edges are the same. -/
theorem msg2_eq (e : Fin 850000) (k : Fin 256) :
    out2 (V5 m ρ) c (ix2 (inL e) k) = val_main_v71 (F := Ideal) (a0 m c) (a1 m c) (a2 m c) (a3 m c) (ix2 e k) := by
  rw [final2 (V5 m ρ) c (inL e) k, Cert.ReferenceIdeal.RefEdge.msg2]
  simp only [xj2_eq m ρ c e, xi2_eq m ρ c e]

/-- The second aggregated table: again the padding edges land outside the table. -/
theorem agg2_eq : agg3 (V7 m ρ) c = val_main_v74 (F := Ideal) (a0 m c) (a1 m c) (a2 m c) (a3 m c) := by
  funext j
  obtain ⟨n, k, rfl⟩ : ∃ (n : Fin 50000) (k : Fin 256), j = ix2 n k := ⟨j 0, j 1, eq_ix2 j⟩
  refine (congrFun (entry3_agg m ρ c) (ix2 n k)).trans ?_
  unfold val_main_v74
  refine (Cert.Lib.scatterAdd_rows_apply (N := 50000) (D := 256) (E := 851968)
    Cert.KernelIdeal.Facts₀.scatter_S50000x256_S851968x1_S851968x256_1_0_0_1_wf _ _ _ n k).trans ?_
  refine Eq.trans ?_ (Cert.Lib.scatterAdd_rows_apply (N := 50000) (D := 256) (E := 850000)
    Cert.ReferenceIdeal.Facts₀.scatter_S50000x256_S850000x1_S850000x256_1_0_0_1_wf _ _ _ n k).symm
  refine congrArg₂ (· + ·) rfl ?_
  rw [sum_padded _ (fun e => by
    rw [Cert.IdxFacts.col_pad (edges m c) e, if_neg]
    have := n.isLt
    show ¬ ((50000#32 : BitVec 32).toInt = (n.val : ℤ))
    have h5 : (50000#32 : BitVec 32).toInt = 50000 := by decide
    rw [h5]; omega)]
  refine Finset.sum_congr rfl fun e _ => ?_
  rw [Cert.IdxFacts.col_dst' (F := Ideal) (edges m c) e]
  exact if_congr Iff.rfl (msg2_eq m ρ c e k) rfl

/-- The plain product's dimension numbers of the second layer describe the textbook product. -/
theorem plain2 : Cert.Lib.PlainDot Cert.ReferenceIdeal.dot_S50000x256_S256x64_S50000x64_1_0_0_1_n_n :=
  plainDot_of_fields _ rfl rfl rfl rfl rfl rfl

/-- THE SECOND LAYER: the kernel's second dense call leaves the plain program's second-layer table. -/
theorem layer2_eq : out3 (V7 m ρ) c = val_main_v79 (F := Ideal) (a0 m c) (a1 m c) (a2 m c) (a3 m c) (a4 m c) (a5 m c) := by
  funext j
  obtain ⟨n, q, rfl⟩ : ∃ (n : Fin 50000) (q : Fin 64), j = ix2 n q := ⟨j 0, j 1, eq_ix2 j⟩
  refine (final3 (V7 m ρ) c Cert.ReferenceIdeal.dot_S50000x256_S256x64_S50000x64_1_0_0_1_n_n plain2
    Cert.ReferenceIdeal.Facts₀.transposes_S64x256_S256x64_1_0 Cert.ReferenceIdeal.Facts₀.bcast_S64_S1x64_1 Cert.ReferenceIdeal.Facts₀.bcast_S1x64_S50000x64_0_1
    (a5 m c) (fun q => (congrFun (entry3_b m ρ c) (ix2 (0 : Fin 1) q)).trans (reshape_row_apply _ _ q)) n q).trans ?_
  unfold val_main_v79 val_main_v78 val_main_v77 val_main_v76 val_main_v75
  rw [agg2_eq m ρ c, show w3 (V7 m ρ) c = a4 m c from entry3_w m ρ c]

/-! ## The result -/

/-- The plain program's result is the log-softmax of its second-layer table (its last eleven stages, spelt out). -/
theorem ref_tail (x0 : FVec Ideal S50000x128 .f32) (x1 : IVec S2x800000 32) (x2 : FVec Ideal S256x128 .f32)
    (x3 : FVec Ideal S256 .f32) (x4 : FVec Ideal S64x256 .f32) (x5 : FVec Ideal S64 .f32) :
    (val_main_v80 (F := Ideal) x0 x1 x2 x3 x4 x5 : FVec Ideal S50000x64 .f32)
      = logSoftmax (F := Ideal) (val_main_v79 (F := Ideal) x0 x1 x2 x3 x4 x5 : FVec Ideal S50000x64 .f32) := by
  unfold val_main_v80 val_main_call5_v10 val_main_call5_v9 val_main_call5_v8 val_main_call5_v7 val_main_call5_cst_1
    val_main_call5_v6 val_main_call5_v5 val_main_call5_v4 val_main_call5_v3 val_main_call5_v2 val_main_call5_v1
    val_main_call5_cst_0 val_main_call5_v0 val_main_call5_cst logSoftmax shifted
  rfl

/-- THE KERNEL PROGRAM'S RESULT is the plain program's last stage of the same arguments. -/
theorem kernel_value :
    W9 m ρ c (Proc.devRef .tc main_v52) = val_main_v80 (F := Ideal) (a0 m c) (a1 m c) (a2 m c) (a3 m c) (a4 m c) (a5 m c) := by
  refine (result m ρ c).trans ?_
  rw [ref_tail]
  exact congrArg (logSoftmax (F := Ideal)) (layer2_eq m ρ c)

end Cert.Bridge

end
-- ==== Proof.lean ====
/-
  The certificate: a two-layer graph convolution with cosine-gated messages, as a tiled kernel program against the
  plain program.

  Both programs append the self loops to the edge list, and per layer gather the node table's rows at every edge's
  source and target, weight the edge `1` or `0` by whether the cosine of its two rows (denominator kept at least `ε`)
  exceeds `1/2`, scatter-add the weighted source rows to the targets, and apply a dense layer (with the maximum with
  zero after the first); they end with a row-wise log-softmax. The kernel's program pads the edges to a whole number of
  tiles, computes the weights and the dense layers in tiled kernel calls (the dense products on the matrix unit with
  operands narrowed to bf16), and scatters its padding edges to a row number outside the table.

  Over the extended reals the two results are equal element by element: narrowing is the identity, a tile's product is
  the textbook sum, a kernel call's output array is one function of its input arrays that its tiles restrict and
  cover, the index lists agree on the true edges, and the padding edges add nothing to any row's sum. No finiteness of
  the inputs is used: no term is cancelled or distributed, sums are only regrouped. The three frames are the
  kernel programs' generated frames and the plain program's run with its result dropped; the idealization rewrote no
  operation, so it preserves the kernel trivially.
-/
import proofs.«107164_j5385888989441_1_alg».proof.Defs
import proofs.«107164_j5385888989441_1_alg».proof.Proof.Gen.Kernel
import proofs.«107164_j5385888989441_1_alg».proof.Proof.Gen.Kernel.Skeleton
import proofs.«107164_j5385888989441_1_alg».proof.Proof.Gen.Kernel.Launch
import proofs.«107164_j5385888989441_1_alg».proof.Proof.Gen.Kernel.Points
import proofs.«107164_j5385888989441_1_alg».proof.Proof.Gen.Kernel.Frame
import proofs.«107164_j5385888989441_1_alg».proof.Proof.Gen.KernelIdeal
import proofs.«107164_j5385888989441_1_alg».proof.Proof.Gen.KernelIdeal.Skeleton
import proofs.«107164_j5385888989441_1_alg».proof.Proof.Gen.KernelIdeal.Launch
import proofs.«107164_j5385888989441_1_alg».proof.Proof.Gen.KernelIdeal.Points
import proofs.«107164_j5385888989441_1_alg».proof.Proof.Gen.KernelIdeal.Frame
import proofs.«107164_j5385888989441_1_alg».proof.Proof.Gen.ReferenceIdeal
import proofs.«107164_j5385888989441_1_alg».proof.Proof.Gen.Pre_finite_inputs
import proofs.«107164_j5385888989441_1_alg».proof.Proof.KernelRun
import proofs.«107164_j5385888989441_1_alg».proof.Proof.RefRun
import proofs.«107164_j5385888989441_1_alg».proof.Proof.Bridge2
import Idealize.ShloMosaic.Adequacy
import Idealize.ShloMosaic.Init

noncomputable section

namespace Cert.Proof

open Idealize.ShloMosaic Idealize.SL.Sem

/-- The kernel's program runs, its arguments unchanged (the generated frame). -/
theorem frame_k : Cert.frame_Kernel := fun m ρ _ => Cert.Kernel.Gen.frame m ρ
/-- The idealized kernel's program runs, its arguments unchanged (the generated frame). -/
theorem frame_ki : Cert.frame_KernelIdeal := fun m ρ _ => Cert.KernelIdeal.Gen.frame m ρ
/-- The plain program runs, its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Over the extended reals, from memories agreeing on the arguments, both programs end with the plain program's last
    stage of those arguments in their result buffers. -/
theorem algebraic : Cert.algebraic_KernelIdeal_ReferenceIdeal := by
  intro m ρ m' ρ' _ hagree
  refine ⟨fun c => Cert.ReferenceIdeal.ReadP.val_main_v80 (F := Ideal) (Cert.Bridge.a0 m c) (Cert.Bridge.a1 m c) (Cert.Bridge.a2 m c) (Cert.Bridge.a3 m c) (Cert.Bridge.a4 m c) (Cert.Bridge.a5 m c), ?_, ?_⟩
  · exact (θ_run Cert.KernelIdeal.defs _ _).mono
      (fun _ h c => ⟨(h c).1.trans (Cert.Bridge.kernel_value m ρ c), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
